-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x8x8x8 : Shape := ⟨4, ![65536, 8, 8, 8]⟩
abbrev S65536x16x2 : Shape := ⟨3, ![65536, 16, 2]⟩
abbrev S65536x16x3 : Shape := ⟨3, ![65536, 16, 3]⟩
abbrev S_ : Shape := ⟨0, ![]⟩

class Facts : Prop where
  bcast_S_S65536x8x8x8 : S_.BroadcastsInDim S65536x8x8x8 (![] : Fin 0 → Fin S65536x8x8x8.rank)
  reducesTo_S65536x8x8x8_S_d0_1_2_3 : S65536x8x8x8.ReducesTo [0, 1, 2, 3] S_
  h_S_ : 0 < S_.numel
  bcast_S_S65536x16x3 : S_.BroadcastsInDim S65536x16x3 (![] : Fin 0 → Fin S65536x16x3.rank)
  reducesTo_S65536x16x3_S_d0_1_2 : S65536x16x3.ReducesTo [0, 1, 2] S_
  bcast_S_S65536x16x2 : S_.BroadcastsInDim S65536x16x2 (![] : Fin 0 → Fin S65536x16x2.rank)
  reducesTo_S65536x16x2_S_d0_1_2 : S65536x16x2.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S65536x8x8x8 .f32) (main_arg1 : IVec S65536x16x2 32) (main_arg2 : FVec F S65536x16x3 .f32) : IVec S_ 1 :=
  let main_v0 : FVec F S65536x8x8x8 .f32 := Host.absf main_arg0
  let main_cst : FVec F S_ .f32 := constant S_ .f32 0x7F800000#32
  let main_v1 : FVec F S65536x8x8x8 .f32 := broadcastInDim S65536x8x8x8 ![] bcast_S_S65536x8x8x8 main_cst
  let main_v2 : IVec S65536x8x8x8 1 := cmpf .olt main_v0 main_v1
  let main_c : IVec S_ 1 := constantI S_ 1 1#1
  let main_v3 : IVec S_ 1 := (fun x v => Host.reduce IntOp.andi x v reducesTo_S65536x8x8x8_S_d0_1_2_3 h_S_) main_v2 main_c
  let main_v4 : FVec F S65536x16x3 .f32 := Host.absf main_arg2
  let main_cst_0 : FVec F S_ .f32 := constant S_ .f32 0x7F800000#32
  let main_v5 : FVec F S65536x16x3 .f32 := broadcastInDim S65536x16x3 ![] bcast_S_S65536x16x3 main_cst_0
  let main_v6 : IVec S65536x16x3 1 := cmpf .olt main_v4 main_v5
  let main_c_1 : IVec S_ 1 := constantI S_ 1 1#1
  let main_v7 : IVec S_ 1 := (fun x v => Host.reduce IntOp.andi x v reducesTo_S65536x16x3_S_d0_1_2 h_S_) main_v6 main_c_1
  let main_v8 : IVec S_ 1 := andi main_v3 main_v7
  let main_c_2 : IVec S_ 32 := constantI S_ 32 0#32
  let main_v9 : IVec S65536x16x2 32 := broadcastInDim S65536x16x2 ![] bcast_S_S65536x16x2 main_c_2
  let main_v10 : IVec S65536x16x2 1 := cmpi .sge main_arg1 main_v9
  let main_c_3 : IVec S_ 1 := constantI S_ 1 1#1
  let main_v11 : IVec S_ 1 := (fun x v => Host.reduce IntOp.andi x v reducesTo_S65536x16x2_S_d0_1_2 h_S_) main_v10 main_c_3
  let main_v12 : IVec S_ 1 := andi main_v8 main_v11
  let main_c_4 : IVec S_ 32 := constantI S_ 32 8#32
  let main_v13 : IVec S65536x16x2 32 := broadcastInDim S65536x16x2 ![] bcast_S_S65536x16x2 main_c_4
  let main_v14 : IVec S65536x16x2 1 := cmpi .slt main_arg1 main_v13
  let main_c_5 : IVec S_ 1 := constantI S_ 1 1#1
  let main_v15 : IVec S_ 1 := (fun x v => Host.reduce IntOp.andi x v reducesTo_S65536x16x2_S_d0_1_2 h_S_) main_v14 main_c_5
  fn_part1 (F := F) main_v12 main_v15
-- ==== Kernel.lean ====
abbrev S65536x8x8x8 : Shape := ⟨4, ![65536, 8, 8, 8]⟩
abbrev S65536x16x2 : Shape := ⟨3, ![65536, 16, 2]⟩
abbrev S65536x16x3 : Shape := ⟨3, ![65536, 16, 3]⟩
abbrev S65536x64x8 : Shape := ⟨3, ![65536, 64, 8]⟩
abbrev S2x8x128 : Shape := ⟨3, ![2, 8, 128]⟩
abbrev S128x64x8 : Shape := ⟨3, ![128, 64, 8]⟩
abbrev S128x16x2 : Shape := ⟨3, ![128, 16, 2]⟩
abbrev S128x16x3 : Shape := ⟨3, ![128, 16, 3]⟩
abbrev S1x8x128 : Shape := ⟨3, ![1, 8, 128]⟩
abbrev S8x128 : Shape := ⟨2, ![8, 128]⟩
abbrev S128x16x1 : Shape := ⟨3, ![128, 16, 1]⟩
abbrev S128x16 : Shape := ⟨2, ![128, 16]⟩
abbrev S128x16x64 : Shape := ⟨3, ![128, 16, 64]⟩
abbrev S128x16x8 : Shape := ⟨3, ![128, 16, 8]⟩
abbrev S128 : Shape := ⟨1, ![128]⟩
abbrev S128x1 : Shape := ⟨2, ![128, 1]⟩
abbrev S1 : Shape := ⟨1, ![1]⟩
abbrev S1x1 : Shape := ⟨2, ![1, 1]⟩
abbrev S128x64 : Shape := ⟨2, ![128, 64]⟩
abbrev S128x64x1 : Shape := ⟨3, ![128, 64, 1]⟩
abbrev S2x1x1 : Shape := ⟨3, ![2, 1, 1]⟩
abbrev S2 : Shape := ⟨1, ![2]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S65536x8x8x8, .f32⟩
  | .hbm, ⟨1, _⟩ => ⟨S65536x16x2, .i32⟩
  | .hbm, ⟨2, _⟩ => ⟨S65536x16x3, .f32⟩
  | .hbm, ⟨3, _⟩ => ⟨S65536x64x8, .f32⟩
  | .hbm, ⟨4, _⟩ => ⟨S2x8x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S128x64x8, .f32⟩
  | .local _ .vmem, ⟨1, _⟩ => ⟨S128x64x8, .f32⟩
  | .local _ .vmem, ⟨2, _⟩ => ⟨S128x16x2, .i32⟩
  | .local _ .vmem, ⟨3, _⟩ => ⟨S128x16x2, .i32⟩
  | .local _ .vmem, ⟨4, _⟩ => ⟨S128x16x3, .f32⟩
  | .local _ .vmem, ⟨5, _⟩ => ⟨S128x16x3, .f32⟩
  | .local _ .vmem, ⟨6, _⟩ => ⟨S1x8x128, .f32⟩
  | .local _ .vmem, ⟨7, _⟩ => ⟨S1x8x128, .f32⟩
  | _, _ => ⟨S65536x8x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 256], ![false, false]⟩

def cc0_transform_0 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x16x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x16x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S65536x8x8x8_S65536x64x8 : S65536x8x8x8.ShapeCasts S65536x64x8
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S128x64x8_S128x64x8_0_0_0 : ∀ a, (![0, 0, 0] : Fin 3 → Nat) a + S128x64x8.size a ≤ S128x64x8.size a
  h_S128x64x8 : 0 < S128x64x8.numel
  shapeCasts_S128x64x8_S128x64x8 : S128x64x8.ShapeCasts S128x64x8
  inb_S128x16x2_S128x16x1_0_0_0 : ∀ a, (![0, 0, 0] : Fin 3 → Nat) a + S128x16x1.size a ≤ S128x16x2.size a
  h_S128x16x1 : 0 < S128x16x1.numel
  shapeCasts_S128x16x1_S128x16 : S128x16x1.ShapeCasts S128x16
  inb_S128x16x2_S128x16x1_0_0_1 : ∀ a, (![0, 0, 1] : Fin 3 → Nat) a + S128x16x1.size a ≤ S128x16x2.size a
  iota_S128x16x64_d2_w32 : S128x16x64.Iotas .tc 32 [2]
  shapeCasts_S128x16_S128x16x1 : S128x16.ShapeCasts S128x16x1
  broadcasts_S128x16x1_S128x16x64 : S128x16x1.Broadcasts S128x16x64
  natLt_1_32 : 1 < 32
  inb_S128x16x3_S128x16x1_0_0_0 : ∀ a, (![0, 0, 0] : Fin 3 → Nat) a + S128x16x1.size a ≤ S128x16x3.size a
  inb_S128x16x3_S128x16x1_0_0_1 : ∀ a, (![0, 0, 1] : Fin 3 → Nat) a + S128x16x1.size a ≤ S128x16x3.size a
  inb_S128x16x3_S128x16x1_0_0_2 : ∀ a, (![0, 0, 2] : Fin 3 → Nat) a + S128x16x1.size a ≤ S128x16x3.size a
  slices_S128x16x8_o0_0_0_S128x16x1 : S128x16x8.Slices ![0, 0, 0] S128x16x1
  slices_S128x16x8_o0_0_1_S128x16x1 : S128x16x8.Slices ![0, 0, 1] S128x16x1
  slices_S128x16x8_o0_0_2_S128x16x1 : S128x16x8.Slices ![0, 0, 2] S128x16x1
  slices_S128x16x8_o0_0_3_S128x16x1 : S128x16x8.Slices ![0, 0, 3] S128x16x1
  slices_S128x16x8_o0_0_4_S128x16x1 : S128x16x8.Slices ![0, 0, 4] S128x16x1
  slices_S128x16x8_o0_0_5_S128x16x1 : S128x16x8.Slices ![0, 0, 5] S128x16x1
  slices_S128x16x8_o0_0_6_S128x16x1 : S128x16x8.Slices ![0, 0, 6] S128x16x1
  slices_S128x16x8_o0_0_7_S128x16x1 : S128x16x8.Slices ![0, 0, 7] S128x16x1
  reduces_S128x16_S128 : S128x16.Reduces [1] S128
  shapeCasts_S128_S128x1 : S128.ShapeCasts S128x1
  reduces_S128x1_S1 : S128x1.Reduces [0] S1
  shapeCasts_S1_S1x1 : S1.ShapeCasts S1x1
  reduces_S128x16x64_S128x64 : S128x16x64.Reduces [1] S128x64
  slices_S128x64x8_o0_0_3_S128x64x1 : S128x64x8.Slices ![0, 0, 3] S128x64x1
  shapeCasts_S128x64x1_S128x64 : S128x64x1.ShapeCasts S128x64
  slices_S128x64x8_o0_0_7_S128x64x1 : S128x64x8.Slices ![0, 0, 7] S128x64x1
  reduces_S128x64_S128 : S128x64.Reduces [1] S128
  shapeCasts_S1x1_S1x1 : S1x1.ShapeCasts S1x1
  broadcasts_S1x1_S8x128 : S1x1.Broadcasts S8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S128x16x64_S128x64x8_S128x16x8_2_1_1_2_0_0_wf : DotDims.WF S128x16x64 S128x64x8 S128x16x8 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x8.size a ≤ S65536x64x8.size a
  hwx0_0 : ∀ i : grid0.Coords, EltTy.bits .f32 = 32 ∨ (Rect.block (s := S65536x64x8) S128x64x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16x2.size a ≤ S65536x16x2.size a
  hwx0_1 : ∀ i : grid0.Coords, EltTy.bits .i32 = 32 ∨ (Rect.block (s := S65536x16x2) S128x16x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16x3.size a ≤ S65536x16x3.size a
  hwx0_2 : ∀ i : grid0.Coords, EltTy.bits .f32 = 32 ∨ (Rect.block (s := S65536x16x3) S128x16x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S128x16x64_S128x64x8_S128x16x8_2_1_1_2_0_0 : DotDims S128x16x64 S128x64x8 S128x16x8 where
  lhsContracting := [2]
  rhsContracting := [1]
  lhsNonContracting := [1]
  rhsNonContracting := [2]
  lhsBatch := [0]
  rhsBatch := [0]
  wf := dot_S128x16x64_S128x64x8_S128x16x8_2_1_1_2_0_0_wf

abbrev win0_0 : Pipeline.Window sig grid0 :=
  Pipeline.Window.ofSpec (Memref.whole main_v0) S128x64x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x8x8x8 : Shape := ⟨4, ![65536, 8, 8, 8]⟩
abbrev S65536x16x2 : Shape := ⟨3, ![65536, 16, 2]⟩
abbrev S65536x16x3 : Shape := ⟨3, ![65536, 16, 3]⟩
abbrev S65536x16x1 : Shape := ⟨3, ![65536, 16, 1]⟩
abbrev S65536x16 : Shape := ⟨2, ![65536, 16]⟩
abbrev S65536 : Shape := ⟨1, ![65536]⟩
abbrev S65536x1 : Shape := ⟨2, ![65536, 1]⟩
abbrev S_ : Shape := ⟨0, ![]⟩
abbrev S65536x16x8 : Shape := ⟨3, ![65536, 16, 8]⟩
abbrev S65536x8x8 : Shape := ⟨3, ![65536, 8, 8]⟩
abbrev S65536x8x8x1 : Shape := ⟨4, ![65536, 8, 8, 1]⟩

abbrev nBuf : Space → Nat
  | .hbm => 221
  | .vmem => 0
  | .smem => 0
  | _ => 0

abbrev hbmTy0_0 (i : Nat) : BufTy := match i % 128 with
  | 0 => ⟨S65536x8x8x8, .f32⟩
  | 1 => ⟨S65536x16x2, .i32⟩
  | 2 => ⟨S65536x16x3, .f32⟩
  | 3 => ⟨S65536x16x1, .i32⟩
  | 4 => ⟨S65536x16, .i32⟩
  | 5 => ⟨S65536x16x1, .i32⟩
  | 6 => ⟨S65536x16, .i32⟩
  | 7 => ⟨S65536, .i32⟩
  | 8 => ⟨S65536x1, .i32⟩
  | 9 => ⟨S_, .i32⟩
  | 10 => ⟨S65536x1, .i32⟩
  | 11 => ⟨S65536x1, .i1⟩
  | 12 => ⟨S_, .i32⟩
  | 13 => ⟨S65536x1, .i32⟩
  | 14 => ⟨S65536x1, .i32⟩
  | 15 => ⟨S65536x1, .i32⟩
  | 16 => ⟨S_, .i32⟩
  | 17 => ⟨S65536x16, .i32⟩
  | 18 => ⟨S65536x16, .i1⟩
  | 19 => ⟨S_, .i32⟩
  | 20 => ⟨S65536x16, .i32⟩
  | 21 => ⟨S65536x16, .i32⟩
  | 22 => ⟨S65536x16, .i32⟩
  | 23 => ⟨S_, .i32⟩
  | 24 => ⟨S65536x16, .i32⟩
  | 25 => ⟨S65536x16, .i1⟩
  | 26 => ⟨S_, .i32⟩
  | 27 => ⟨S65536x16, .i32⟩
  | 28 => ⟨S65536x16, .i32⟩
  | 29 => ⟨S65536x16, .i32⟩
  | 30 => ⟨S65536x16, .i32⟩
  | 31 => ⟨S65536x16x1, .i32⟩
  | 32 => ⟨S65536x16x1, .i32⟩
  | 33 => ⟨S65536x16x1, .i32⟩
  | 34 => ⟨S65536x16x3, .i32⟩
  | 35 => ⟨S65536x16x8, .f32⟩
  | 36 => ⟨S65536x16x1, .f32⟩
  | 37 => ⟨S65536x16, .f32⟩
  | 38 => ⟨S65536x16x1, .f32⟩
  | 39 => ⟨S65536x16, .f32⟩
  | 40 => ⟨S65536x16x1, .f32⟩
  | 41 => ⟨S65536x16, .f32⟩
  | 42 => ⟨S65536x16x1, .f32⟩
  | 43 => ⟨S65536x16, .f32⟩
  | 44 => ⟨S65536x16x1, .f32⟩
  | 45 => ⟨S65536x16, .f32⟩
  | 46 => ⟨S65536x16x1, .f32⟩
  | 47 => ⟨S65536x16, .f32⟩
  | 48 => ⟨S65536x16, .f32⟩
  | 49 => ⟨S65536x16, .f32⟩
  | 50 => ⟨S65536x16, .f32⟩
  | 51 => ⟨S65536x16, .f32⟩
  | 52 => ⟨S65536x16, .f32⟩
  | 53 => ⟨S65536x16, .f32⟩
  | 54 => ⟨S65536x16, .f32⟩
  | 55 => ⟨S65536x16, .f32⟩
  | 56 => ⟨S65536x16, .f32⟩
  | 57 => ⟨S65536x16, .f32⟩
  | 58 => ⟨S65536x16, .f32⟩
  | 59 => ⟨S_, .f32⟩
  | 60 => ⟨S65536x16, .f32⟩
  | 61 => ⟨S65536x16, .f32⟩
  | 62 => ⟨S65536x16, .f32⟩
  | 63 => ⟨S65536x16, .f32⟩
  | 64 => ⟨S65536x16, .f32⟩
  | 65 => ⟨S_, .f32⟩
  | 66 => ⟨S65536x16, .f32⟩
  | 67 => ⟨S65536x16, .f32⟩
  | 68 => ⟨S65536x16, .f32⟩
  | 69 => ⟨S65536x16, .f32⟩
  | 70 => ⟨S65536x16, .f32⟩
  | 71 => ⟨S65536x16, .f32⟩
  | 72 => ⟨S65536x16, .f32⟩
  | 73 => ⟨S65536x16, .f32⟩
  | 74 => ⟨S65536x16, .f32⟩
  | 75 => ⟨S65536x16, .f32⟩
  | 76 => ⟨S65536x16, .f32⟩
  | 77 => ⟨S_, .f32⟩
  | 78 => ⟨S65536x16, .f32⟩
  | 79 => ⟨S65536x16, .f32⟩
  | 80 => ⟨S65536x16, .f32⟩
  | 81 => ⟨S65536x16x1, .f32⟩
  | 82 => ⟨S65536x16, .f32⟩
  | 83 => ⟨S65536x16x1, .f32⟩
  | 84 => ⟨S65536x16, .f32⟩
  | 85 => ⟨S65536x16x1, .f32⟩
  | 86 => ⟨S65536x16, .f32⟩
  | 87 => ⟨S65536x16, .f32⟩
  | 88 => ⟨S65536x16, .f32⟩
  | 89 => ⟨S65536x16, .f32⟩
  | 90 => ⟨S65536x16, .f32⟩
  | 91 => ⟨S65536x16, .f32⟩
  | 92 => ⟨S65536x16, .f32⟩
  | 93 => ⟨S65536x16, .f32⟩
  | 94 => ⟨S65536x16, .f32⟩
  | 95 => ⟨S65536x16, .f32⟩
  | 96 => ⟨S65536x16, .f32⟩
  | 97 => ⟨S65536x16, .f32⟩
  | 98 => ⟨S_, .f32⟩
  | 99 => ⟨S65536x16, .f32⟩
  | 100 => ⟨S65536x16, .f32⟩
  | 101 => ⟨S65536x16, .f32⟩
  | 102 => ⟨S65536x16, .f32⟩
  | 103 => ⟨S65536x16, .f32⟩
  | 104 => ⟨S_, .f32⟩
  | 105 => ⟨S65536x16, .f32⟩
  | 106 => ⟨S65536x16, .f32⟩
  | 107 => ⟨S65536x16, .f32⟩
  | 108 => ⟨S65536x16, .f32⟩
  | 109 => ⟨S65536x16, .f32⟩
  | 110 => ⟨S65536x16, .f32⟩
  | 111 => ⟨S65536x16, .f32⟩
  | 112 => ⟨S65536x16, .f32⟩
  | 113 => ⟨S65536x16, .f32⟩
  | 114 => ⟨S65536x16, .f32⟩
  | 115 => ⟨S65536x16, .f32⟩
  | 116 => ⟨S_, .f32⟩
  | 117 => ⟨S65536x16, .f32⟩
  | 118 => ⟨S65536x16, .f32⟩
  | 119 => ⟨S65536x16, .f32⟩
  | 120 => ⟨S65536x16, .i1⟩
  | 121 => ⟨S65536x16x1, .f32⟩
  | 122 => ⟨S65536x16, .f32⟩
  | 123 => ⟨S65536x16x1, .f32⟩
  | 124 => ⟨S65536x16, .f32⟩
  | 125 => ⟨S65536x16, .f32⟩
  | 126 => ⟨S65536x16x1, .f32⟩
  | 127 => ⟨S65536x16, .f32⟩
  | _ => ⟨S65536x8x8x8, .f32⟩

abbrev hbmTy0_1 (i : Nat) : BufTy := match i % 128 with
  | 0 => ⟨S65536x16x1, .f32⟩
  | 1 => ⟨S65536x16, .f32⟩
  | 2 => ⟨S65536x16, .f32⟩
  | 3 => ⟨S65536x16x1, .f32⟩
  | 4 => ⟨S65536x16, .f32⟩
  | 5 => ⟨S65536x16x1, .f32⟩
  | 6 => ⟨S65536x16, .f32⟩
  | 7 => ⟨S65536x16, .f32⟩
  | 8 => ⟨S65536x16x1, .f32⟩
  | 9 => ⟨S65536x16, .f32⟩
  | 10 => ⟨S65536x16x1, .f32⟩
  | 11 => ⟨S65536x16, .f32⟩
  | 12 => ⟨S65536x16, .f32⟩
  | 13 => ⟨S65536x16x1, .f32⟩
  | 14 => ⟨S65536x16, .f32⟩
  | 15 => ⟨S65536x16x1, .f32⟩
  | 16 => ⟨S65536x16, .f32⟩
  | 17 => ⟨S65536x16, .f32⟩
  | 18 => ⟨S65536x16, .f32⟩
  | 19 => ⟨S65536x16, .f32⟩
  | 20 => ⟨S65536x16, .f32⟩
  | 21 => ⟨S65536x16, .f32⟩
  | 22 => ⟨S65536x16, .f32⟩
  | 23 => ⟨S65536x16, .f32⟩
  | 24 => ⟨S65536x16, .f32⟩
  | 25 => ⟨S65536x16, .f32⟩
  | 26 => ⟨S65536x16, .f32⟩
  | 27 => ⟨S65536x16, .f32⟩
  | 28 => ⟨S_, .f32⟩
  | 29 => ⟨S_, .f32⟩
  | 30 => ⟨S_, .f32⟩
  | 31 => ⟨S_, .f32⟩
  | 32 => ⟨S65536x16, .f32⟩
  | 33 => ⟨S65536x16, .f32⟩
  | 34 => ⟨S_, .f32⟩
  | 35 => ⟨S_, .f32⟩
  | 36 => ⟨S65536x16, .f32⟩
  | 37 => ⟨S65536x16, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S65536x8x8, .f32⟩
  | 45 => ⟨S_, .i32⟩
  | 46 => ⟨S65536x1, .i32⟩
  | 47 => ⟨S65536x1, .i1⟩
  | 48 => ⟨S_, .i32⟩
  | 49 => ⟨S65536x1, .i32⟩
  | 50 => ⟨S65536x1, .i32⟩
  | 51 => ⟨S65536x1, .i32⟩
  | 52 => ⟨S_, .i32⟩
  | 53 => ⟨S65536x16, .i32⟩
  | 54 => ⟨S65536x16, .i1⟩
  | 55 => ⟨S_, .i32⟩
  | 56 => ⟨S65536x16, .i32⟩
  | 57 => ⟨S65536x16, .i32⟩
  | 58 => ⟨S65536x16, .i32⟩
  | 59 => ⟨S_, .i32⟩
  | 60 => ⟨S65536x16, .i32⟩
  | 61 => ⟨S65536x16, .i1⟩
  | 62 => ⟨S_, .i32⟩
  | 63 => ⟨S65536x16, .i32⟩
  | 64 => ⟨S65536x16, .i32⟩
  | 65 => ⟨S65536x16, .i32⟩
  | 66 => ⟨S65536x16, .i32⟩
  | 67 => ⟨S65536x16x1, .i32⟩
  | 68 => ⟨S65536x16x1, .i32⟩
  | 69 => ⟨S65536x16x1, .i32⟩
  | 70 => ⟨S65536x16x3, .i32⟩
  | 71 => ⟨S_, .f32⟩
  | 72 => ⟨S65536x16, .f32⟩
  | 73 => ⟨S65536x8x8, .f32⟩
  | 74 => ⟨S65536x8x8x1, .f32⟩
  | 75 => ⟨S65536x8x8, .f32⟩
  | 76 => ⟨S65536x8x8, .f32⟩
  | 77 => ⟨S65536x8x8x1, .f32⟩
  | 78 => ⟨S65536x8x8, .f32⟩
  | 79 => ⟨S65536x8x8, .f32⟩
  | 80 => ⟨S65536x8x8, .f32⟩
  | 81 => ⟨S_, .f32⟩
  | 82 => ⟨S65536x8x8, .f32⟩
  | 83 => ⟨S65536x8x8, .f32⟩
  | 84 => ⟨S65536x8x8, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | _ => ⟨S65536x8x8x8, .f32⟩

abbrev hbmTy (i : Nat) : BufTy := match i / 128 with
  | 0 => hbmTy0_0 i
  | 1 => hbmTy0_1 i
  | _ => ⟨S65536x8x8x8, .f32⟩

abbrev bufTy : (tb : Table) → Fin (tcTables nBuf tb) → BufTy
  | .hbm, ⟨i, _⟩ => hbmTy i
  | _, _ => ⟨S65536x8x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_cst_7 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_cst_8 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_9 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_cst_10 : Ref sig .tc := ⟨.hbm, 156, rfl⟩
abbrev main_v141 : Ref sig .tc := ⟨.hbm, 157, rfl⟩
abbrev main_cst_11 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_cst_12 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_cst_13 : Ref sig .tc := ⟨.hbm, 166, rfl⟩
abbrev main_v148 : Ref sig .tc := ⟨.hbm, 167, rfl⟩
abbrev main_cst_14 : Ref sig .tc := ⟨.hbm, 168, rfl⟩
abbrev main_v149 : Ref sig .tc := ⟨.hbm, 169, rfl⟩
abbrev main_v150 : Ref sig .tc := ⟨.hbm, 170, rfl⟩
abbrev main_cst_15 : Ref sig .tc := ⟨.hbm, 171, rfl⟩
abbrev main_v151 : Ref sig .tc := ⟨.hbm, 172, rfl⟩
abbrev main_c_16 : Ref sig .tc := ⟨.hbm, 173, rfl⟩
abbrev main_v152 : Ref sig .tc := ⟨.hbm, 174, rfl⟩
abbrev main_v153 : Ref sig .tc := ⟨.hbm, 175, rfl⟩
abbrev main_c_17 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_c_18 : Ref sig .tc := ⟨.hbm, 180, rfl⟩
abbrev main_v157 : Ref sig .tc := ⟨.hbm, 181, rfl⟩
abbrev main_v158 : Ref sig .tc := ⟨.hbm, 182, rfl⟩
abbrev main_c_19 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_c_20 : Ref sig .tc := ⟨.hbm, 187, rfl⟩
abbrev main_v162 : Ref sig .tc := ⟨.hbm, 188, rfl⟩
abbrev main_v163 : Ref sig .tc := ⟨.hbm, 189, rfl⟩
abbrev main_c_21 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_cst_22 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_cst_23 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_cst_24 : Ref sig .tc := ⟨.hbm, 213, rfl⟩
abbrev main_v184 : Ref sig .tc := ⟨.hbm, 214, rfl⟩
abbrev main_cst_25 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_cst_26 : Ref sig .tc := ⟨.hbm, 219, rfl⟩
abbrev main_v188 : Ref sig .tc := ⟨.hbm, 220, rfl⟩

abbrev nD : Nat := 1
abbrev τ : Topo := Topo.v7x

variable {F : FTy → Type} [FloatOps F]

class Facts₀ : Prop where
  slices_S65536x16x2_S65536x16x1_0_0_0 : S65536x16x2.Slices ![0, 0, 0] S65536x16x1
  shapeCasts_S65536x16x1_S65536x16 : S65536x16x1.ShapeCasts S65536x16
  slices_S65536x16x2_S65536x16x1_0_0_1 : S65536x16x2.Slices ![0, 0, 1] S65536x16x1
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S_S65536x16 : S_.BroadcastsInDim S65536x16 (![] : Fin 0 → Fin S65536x16.rank)
  bcast_S65536x1_S65536x16_0_1 : S65536x1.BroadcastsInDim S65536x16 (![0, 1] : Fin 2 → Fin S65536x16.rank)
  bcast_S65536x16_S65536x16x1_0_1 : S65536x16.BroadcastsInDim S65536x16x1 (![0, 1] : Fin 2 → Fin S65536x16x1.rank)
  concatenates_S65536x16x1_S65536x16x1_S65536x16x1_S65536x16x3_d2 : Shape.Concatenates [S65536x16x1, S65536x16x1, S65536x16x1] S65536x16x3 2
  slices_S65536x16x3_S65536x16x1_0_0_0 : S65536x16x3.Slices ![0, 0, 0] S65536x16x1
  slices_S65536x16x3_S65536x16x1_0_0_1 : S65536x16x3.Slices ![0, 0, 1] S65536x16x1
  slices_S65536x16x3_S65536x16x1_0_0_2 : S65536x16x3.Slices ![0, 0, 2] S65536x16x1
  slices_S65536x16x8_S65536x16x1_0_0_0 : S65536x16x8.Slices ![0, 0, 0] S65536x16x1
  slices_S65536x16x8_S65536x16x1_0_0_1 : S65536x16x8.Slices ![0, 0, 1] S65536x16x1
  slices_S65536x16x8_S65536x16x1_0_0_2 : S65536x16x8.Slices ![0, 0, 2] S65536x16x1
  slices_S65536x16x8_S65536x16x1_0_0_4 : S65536x16x8.Slices ![0, 0, 4] S65536x16x1
  slices_S65536x16x8_S65536x16x1_0_0_5 : S65536x16x8.Slices ![0, 0, 5] S65536x16x1
  slices_S65536x16x8_S65536x16x1_0_0_6 : S65536x16x8.Slices ![0, 0, 6] S65536x16x1
  slices_S65536x16x8_S65536x16x1_0_0_7 : S65536x16x8.Slices ![0, 0, 7] S65536x16x1
  slices_S65536x16x8_S65536x16x1_0_0_3 : S65536x16x8.Slices ![0, 0, 3] S65536x16x1
  reducesTo_S65536x16_S_d0_1 : S65536x16.ReducesTo [0, 1] S_
  h_S_ : 0 < S_.numel
  bcast_S_S65536x8x8 : S_.BroadcastsInDim S65536x8x8 (![] : Fin 0 → Fin S65536x8x8.rank)
  slices_S65536x8x8x8_S65536x8x8x1_0_0_0_3 : S65536x8x8x8.Slices ![0, 0, 0, 3] S65536x8x8x1
  shapeCasts_S65536x8x8x1_S65536x8x8 : S65536x8x8x1.ShapeCasts S65536x8x8
  slices_S65536x8x8x8_S65536x8x8x1_0_0_0_7 : S65536x8x8x8.Slices ![0, 0, 0, 7] S65536x8x8x1
  reducesTo_S65536x8x8_S_d0_1_2 : S65536x8x8.ReducesTo [0, 1, 2] S_
  gather_S65536x8x8x8_S65536x16x3_S65536x16x8_2_012_n_n_012_2_1118_wf : GatherDims.WF S65536x8x8x8 S65536x16x3 S65536x16x8 [2] [0, 1, 2] [] [0, 1, 2] [] 2 ![1, 1, 1, 8]
  scatter_S65536x8x8_S65536x16x3_S65536x16_n_012_012_2_wf : ScatterDims.WF S65536x8x8 S65536x16x3 S65536x16 [] [0, 1, 2] [0, 1, 2] 2

variable [Facts₀]

def gather_S65536x8x8x8_S65536x16x3_S65536x16x8_2_012_n_n_012_2_1118 : GatherDims S65536x8x8x8 S65536x16x3 S65536x16x8 where
  offsetDims := [2]
  collapsedSliceDims := [0, 1, 2]
  operandBatchingDims := []
  startIndicesBatchingDims := []
  startIndexMap := [0, 1, 2]
  indexVectorDim := 2
  sliceSizes := ![1, 1, 1, 8]
  wf := gather_S65536x8x8x8_S65536x16x3_S65536x16x8_2_012_n_n_012_2_1118_wf
def scatter_S65536x8x8_S65536x16x3_S65536x16_n_012_012_2 : ScatterDims S65536x8x8 S65536x16x3 S65536x16 where
  updateWindowDims := []
  insertedWindowDims := [0, 1, 2]
  scatterDimsToOperandDims := [0, 1, 2]
  indexVectorDim := 2
  wf := scatter_S65536x8x8_S65536x16x3_S65536x16_n_012_012_2_wf

class Facts : Prop extends Facts₀ where

variable [Facts]
-- ==== Proof.Spec.lean ====
/-
  The loss both programs compute, as one scalar function of the three argument arrays over the extended reals.

  Inputs: `P` (65536 samples, an 8 × 8 grid of cells, 8 numbers per cell: two boxes `(x, y, r, confidence)`),
  `RC` (16 labels per sample, each a cell `(row, column)`), `BX` (a box `(x, y, r)` per label).
  Per label: the responsible cell's 8 numbers `pb`, the overlap ratio of each of its two boxes with the label's box
  (`boxIou`: the squares' intersection over their union plus a small constant), the better box chosen by comparing
  the two ratios, and three squared-error terms (`coordTerm`, `confTerm`, `otherTerm`). Per cell: the squared
  confidences of its two boxes, kept only where no label of the sample points at the cell (`emptyTerm`).
  The loss is `(5 · Σ coord + Σ conf + ½ · Σ other + ½ · Σ empty) / 65536`; the two programs group the sums differently:
  `refTotal` sums each term over all samples first, `kerTotal` sums the weighted combination block of 128 samples by
  block (`blockTotal`), 256 blocks per half, then the two halves.
  A cell is numbered `8 · row + column` (64 per sample); `P` is read through that numbering (`predCell`).
-/
import Idealize.ShloMosaic.PureOps.Ideal
import Idealize.ShloMosaic.PureOps.Ideal.Laws
import Idealize.ShloMosaic.Lib.ValueIdx

noncomputable section

open scoped BigOperators

namespace Cert.LossSpec

open Idealize.ShloMosaic Idealize.ShloMosaic.ValueIdx

/-! ## The literal words (the same words in both programs; never evaluated except the zero and the one) -/

abbrev wEps : EReal := Ideal.ofBits .f32 0x3089705F#32
abbrev wFive : EReal := Ideal.ofBits .f32 0x40A00000#32
abbrev wHalf : EReal := Ideal.ofBits .f32 0x3F000000#32
abbrev wBatch : EReal := Ideal.ofBits .f32 0x47800000#32

/-! ## One label, one cell -/

/-- Intersection over union (plus `wEps`) of the axis-aligned squares of half-width `pr` about `(px, py)` and of
    half-width `gr` about `(gx, gy)`. -/
def boxIou (px py pr gx gy gr : EReal) : EReal :=
  Ideal.div
    (max (min (px + pr) (gx + gr) - max (px - pr) (gx - gr)) 0 * max (min (py + pr) (gy + gr) - max (py - pr) (gy - gr)) 0)
    (((((px + pr) - (px - pr)) * ((py + pr) - (py - pr)) + ((gx + gr) - (gx - gr)) * ((gy + gr) - (gy - gr)))
        - max (min (px + pr) (gx + gr) - max (px - pr) (gx - gr)) 0 * max (min (py + pr) (gy + gr) - max (py - pr) (gy - gr)) 0)
      + wEps)

/-- The first box's ratio. -/
def iouA (pb : Fin 8 → EReal) (g : Fin 3 → EReal) : EReal := boxIou (pb 0) (pb 1) (pb 2) (g 0) (g 1) (g 2)
/-- The second box's ratio. -/
def iouB (pb : Fin 8 → EReal) (g : Fin 3 → EReal) : EReal := boxIou (pb 4) (pb 5) (pb 6) (g 0) (g 1) (g 2)
/-- The second box is strictly better. -/
def swapBit (pb : Fin 8 → EReal) (g : Fin 3 → EReal) : BitVec 1 := Ideal.cmp .ogt (iouB pb g) (iouA pb g)
/-- A choice by a bit. -/
def pick (c : BitVec 1) (a b : EReal) : EReal := if c = 1 then a else b

/-- Squared distance of the chosen box's `(x, y, r)` to the label's. -/
def coordTerm (pb : Fin 8 → EReal) (g : Fin 3 → EReal) : EReal :=
  ((pick (swapBit pb g) (pb 4) (pb 0) - g 0) * (pick (swapBit pb g) (pb 4) (pb 0) - g 0)
    + (pick (swapBit pb g) (pb 5) (pb 1) - g 1) * (pick (swapBit pb g) (pb 5) (pb 1) - g 1))
    + (pick (swapBit pb g) (pb 6) (pb 2) - g 2) * (pick (swapBit pb g) (pb 6) (pb 2) - g 2)
/-- Squared difference of the better ratio and the chosen box's confidence. -/
def confTerm (pb : Fin 8 → EReal) (g : Fin 3 → EReal) : EReal :=
  (pick (swapBit pb g) (iouB pb g) (iouA pb g) - pick (swapBit pb g) (pb 7) (pb 3))
    * (pick (swapBit pb g) (iouB pb g) (iouA pb g) - pick (swapBit pb g) (pb 7) (pb 3))
/-- Squared difference of the worse ratio and the other box's confidence. -/
def otherTerm (pb : Fin 8 → EReal) (g : Fin 3 → EReal) : EReal :=
  (pick (swapBit pb g) (iouA pb g) (iouB pb g) - pick (swapBit pb g) (pb 3) (pb 7))
    * (pick (swapBit pb g) (iouA pb g) (iouB pb g) - pick (swapBit pb g) (pb 3) (pb 7))
/-- A cell's two squared confidences, times one minus the cell's mark (`1` marked, `0` not). -/
def emptyTerm (p3 p7 mark : EReal) : EReal := (p3 * p3 + p7 * p7) * (Ideal.ofBits .f32 0x3F800000#32 - mark)

/-! ## A block of 128 samples: `x0` its cells' numbers [128, 64, 8], `x1` its labels' cells [128, 16, 2], `x2` its labels' boxes [128, 16, 3] -/

abbrev SB0 : Shape := ⟨3, ![128, 64, 8]⟩
abbrev SB1 : Shape := ⟨3, ![128, 16, 2]⟩
abbrev SB2 : Shape := ⟨3, ![128, 16, 3]⟩

/-- The number of the cell label `l` of sample `b` points at: `8 · row + column`, each coordinate read modulo 8 (the
    identity on coordinates in `[0, 8)`). -/
def cellB (x1 : SB1.Idx → BitVec 32) (b : Fin 128) (l : Fin 16) : Fin 64 :=
  ⟨(x1 (ix3 b l 0)).toNat % 8 * 8 + (x1 (ix3 b l 1)).toNat % 8, by omega⟩
/-- The responsible cell's 8 numbers. -/
def pbB (x0 : SB0.Idx → EReal) (x1 : SB1.Idx → BitVec 32) (b : Fin 128) (l : Fin 16) : Fin 8 → EReal :=
  fun d => x0 (ix3 b (cellB x1 b l) d)
/-- The label's box. -/
def gB (x2 : SB2.Idx → EReal) (b : Fin 128) (l : Fin 16) : Fin 3 → EReal := fun k => x2 (ix3 b l k)
/-- `1` when some label of sample `b` points at `cell`, else `0`. -/
def markB (x1 : SB1.Idx → BitVec 32) (b : Fin 128) (cell : Fin 64) : EReal :=
  if ∃ l : Fin 16, cellB x1 b l = cell then 1 else 0

/-- The block's weighted total: `5 · Σ coord + Σ conf + ½ · Σ other + ½ · Σ empty`, each sum over the block's samples and
    then over a sample's labels (or cells). -/
def blkTotal (x0 : SB0.Idx → EReal) (x1 : SB1.Idx → BitVec 32) (x2 : SB2.Idx → EReal) : EReal :=
  ((wFive * (∑ b : Fin 128, ∑ l : Fin 16, coordTerm (pbB x0 x1 b l) (gB x2 b l))
      + ∑ b : Fin 128, ∑ l : Fin 16, confTerm (pbB x0 x1 b l) (gB x2 b l))
    + wHalf * (∑ b : Fin 128, ∑ l : Fin 16, otherTerm (pbB x0 x1 b l) (gB x2 b l)))
  + wHalf * (∑ b : Fin 128, ∑ cell : Fin 64, emptyTerm (x0 (ix3 b cell 3)) (x0 (ix3 b cell 7)) (markB x1 b cell))

/-! ## The whole arrays -/

abbrev SP : Shape := ⟨4, ![65536, 8, 8, 8]⟩
abbrev SRC : Shape := ⟨3, ![65536, 16, 2]⟩
abbrev SBX : Shape := ⟨3, ![65536, 16, 3]⟩

/-- `P` read by cell number: cell `8 · r + c` of sample `b` is `P[b, r, c, ·]`. -/
def predCell (P : SP.Idx → EReal) (b : Fin 65536) (cell : Fin 64) (d : Fin 8) : EReal :=
  P (ix4 b ⟨cell.val / 8, by omega⟩ ⟨cell.val % 8, by omega⟩ d)
/-- The number of the cell label `l` of sample `b` points at. -/
def cellAt (RC : SRC.Idx → BitVec 32) (b : Fin 65536) (l : Fin 16) : Fin 64 :=
  ⟨(RC (ix3 b l 0)).toNat % 8 * 8 + (RC (ix3 b l 1)).toNat % 8, by omega⟩
def pbAt (P : SP.Idx → EReal) (RC : SRC.Idx → BitVec 32) (b : Fin 65536) (l : Fin 16) : Fin 8 → EReal :=
  fun d => predCell P b (cellAt RC b l) d
def gAt (BX : SBX.Idx → EReal) (b : Fin 65536) (l : Fin 16) : Fin 3 → EReal := fun k => BX (ix3 b l k)
def markAt (RC : SRC.Idx → BitVec 32) (b : Fin 65536) (cell : Fin 64) : EReal :=
  if ∃ l : Fin 16, cellAt RC b l = cell then 1 else 0

def leafCoord (P : SP.Idx → EReal) (RC : SRC.Idx → BitVec 32) (BX : SBX.Idx → EReal) (b : Fin 65536) (l : Fin 16) : EReal :=
  coordTerm (pbAt P RC b l) (gAt BX b l)
def leafConf (P : SP.Idx → EReal) (RC : SRC.Idx → BitVec 32) (BX : SBX.Idx → EReal) (b : Fin 65536) (l : Fin 16) : EReal :=
  confTerm (pbAt P RC b l) (gAt BX b l)
def leafOther (P : SP.Idx → EReal) (RC : SRC.Idx → BitVec 32) (BX : SBX.Idx → EReal) (b : Fin 65536) (l : Fin 16) : EReal :=
  otherTerm (pbAt P RC b l) (gAt BX b l)
def leafEmpty (P : SP.Idx → EReal) (RC : SRC.Idx → BitVec 32) (b : Fin 65536) (cell : Fin 64) : EReal :=
  emptyTerm (predCell P b cell 3) (predCell P b cell 7) (markAt RC b cell)

/-- The loss with every term summed over all samples first. -/
def refTotal (P : SP.Idx → EReal) (RC : SRC.Idx → BitVec 32) (BX : SBX.Idx → EReal) : EReal :=
  Ideal.div
    (wFive * (0 + ∑ b : Fin 65536, ∑ l : Fin 16, leafCoord P RC BX b l)
      + (((0 + ∑ b : Fin 65536, ∑ l : Fin 16, leafConf P RC BX b l)
          + wHalf * (0 + ∑ b : Fin 65536, ∑ l : Fin 16, leafOther P RC BX b l))
        + wHalf * (0 + ∑ b : Fin 65536, ∑ cell : Fin 64, leafEmpty P RC b cell)))
    wBatch

/-- Sample `128 · n + b` (block `n`, row `b`), wrapped into range. -/
def rowOf (n : ℕ) (b : Fin 128) : Fin 65536 := ⟨(128 * n + b.val) % 65536, Nat.mod_lt _ (by decide)⟩

/-- Block `n` of the arrays. -/
def blkP (P : SP.Idx → EReal) (n : ℕ) : SB0.Idx → EReal := fun y => predCell P (rowOf n (y 0)) (y 1) (y 2)
def blkRC (RC : SRC.Idx → BitVec 32) (n : ℕ) : SB1.Idx → BitVec 32 := fun y => RC (ix3 (rowOf n (y 0)) (y 1) (y 2))
def blkBX (BX : SBX.Idx → EReal) (n : ℕ) : SB2.Idx → EReal := fun y => BX (ix3 (rowOf n (y 0)) (y 1) (y 2))

/-- Block `n`'s weighted total. -/
def blockTotal (P : SP.Idx → EReal) (RC : SRC.Idx → BitVec 32) (BX : SBX.Idx → EReal) (n : ℕ) : EReal :=
  blkTotal (blkP P n) (blkRC RC n) (blkBX BX n)

/-- One half's 256 block totals, added in order from zero. -/
def halfTotal (P : SP.Idx → EReal) (RC : SRC.Idx → BitVec 32) (BX : SBX.Idx → EReal) (i : ℕ) : EReal :=
  ∑ j ∈ Finset.range 256, blockTotal P RC BX (256 * i + j)

/-- The loss with the weighted combination summed block by block. -/
def kerTotal (P : SP.Idx → EReal) (RC : SRC.Idx → BitVec 32) (BX : SBX.Idx → EReal) : EReal :=
  Ideal.div (0 + (halfTotal P RC BX 0 + halfTotal P RC BX 1)) wBatch

end Cert.LossSpec

end
-- ==== Proof.SumLaw.lean ====
/-
  The two groupings of the loss are one extended real.
  Every term is non-negative: a square `y * y` is, for every extended real `y`; a cell's term is a sum of two squares times
  `1 - mark` with `mark` either `0` or `1`. On non-negative extended reals multiplication by a constant distributes over
  addition, and addition is commutative and associative without any finiteness, so the block-by-block sum of weighted
  combinations is the weighted combination of the whole sums.
-/
import proofs.«415334_j7971459302100_4_alg».proof.Proof.Spec
import Mathlib.Data.EReal.Operations
import Mathlib.Algebra.BigOperators.Fin
import Mathlib.Algebra.BigOperators.Group.Finset.Basic
import Mathlib.Algebra.Order.BigOperators.Group.Finset

noncomputable section

open scoped BigOperators

namespace Cert.LossSpec

open Idealize.ShloMosaic Idealize.ShloMosaic.ValueIdx

/-! ## Non-negativity of the terms -/

/-- A square is non-negative, for every extended real (`⊥ * ⊥ = ⊤`). -/
theorem mul_self_nonneg_ereal (y : EReal) : 0 ≤ y * y := by
  rcases le_total 0 y with h | h
  · exact EReal.mul_nonneg h h
  · exact EReal.mul_nonneg_iff.mpr (.inr ⟨h, h⟩)

theorem coordTerm_nonneg (pb : Fin 8 → EReal) (g : Fin 3 → EReal) : 0 ≤ coordTerm pb g := by
  unfold coordTerm
  exact add_nonneg (add_nonneg (mul_self_nonneg_ereal _) (mul_self_nonneg_ereal _)) (mul_self_nonneg_ereal _)

theorem otherTerm_nonneg (pb : Fin 8 → EReal) (g : Fin 3 → EReal) : 0 ≤ otherTerm pb g := by
  unfold otherTerm
  exact mul_self_nonneg_ereal _

/-- The word of the one denotes `1`. -/
theorem wOne_eq : (Ideal.ofBits .f32 0x3F800000#32 : EReal) = 1 := by
  simp [Ideal.ofBits, Ideal.ieee, -EReal.coe_mul]; norm_num

/-- A cell's term is non-negative when its mark is `0` or `1`. -/
theorem emptyTerm_nonneg (p3 p7 : EReal) (c : Prop) [Decidable c] :
    0 ≤ emptyTerm p3 p7 (if c then 1 else 0) := by
  unfold emptyTerm
  rw [wOne_eq]
  have h : 0 ≤ p3 * p3 + p7 * p7 := add_nonneg (mul_self_nonneg_ereal _) (mul_self_nonneg_ereal _)
  split_ifs
  · have : (1 : EReal) - 1 = 0 := by
      rw [← EReal.coe_one, ← EReal.coe_sub, sub_self, EReal.coe_zero]
    rw [this, mul_zero]
  · rw [sub_zero, mul_one]; exact h

theorem leafCoord_nonneg (P : SP.Idx → EReal) (RC : SRC.Idx → BitVec 32) (BX : SBX.Idx → EReal) (r : Fin 65536) (l : Fin 16) :
    0 ≤ leafCoord P RC BX r l := coordTerm_nonneg _ _
theorem leafOther_nonneg (P : SP.Idx → EReal) (RC : SRC.Idx → BitVec 32) (BX : SBX.Idx → EReal) (r : Fin 65536) (l : Fin 16) :
    0 ≤ leafOther P RC BX r l := otherTerm_nonneg _ _
theorem leafEmpty_nonneg (P : SP.Idx → EReal) (RC : SRC.Idx → BitVec 32) (r : Fin 65536) (cell : Fin 64) :
    0 ≤ leafEmpty P RC r cell := by
  unfold leafEmpty markAt
  exact emptyTerm_nonneg _ _ _

/-! ## Distributivity over sums of non-negatives -/

/-- A constant times a finite sum of non-negative extended reals is the sum of the products. -/
theorem mul_sum_of_nonneg {ι : Type*} (s : Finset ι) (f : ι → EReal) (hf : ∀ i ∈ s, 0 ≤ f i) (c : EReal) :
    c * ∑ i ∈ s, f i = ∑ i ∈ s, c * f i := by
  classical
  induction s using Finset.induction_on with
  | empty => simp
  | insert i s hi ih =>
    have h0 : 0 ≤ f i := hf i (Finset.mem_insert_self i s)
    have hs : ∀ j ∈ s, 0 ≤ f j := fun j hj => hf j (Finset.mem_insert_of_mem hj)
    rw [Finset.sum_insert hi, Finset.sum_insert hi, EReal.left_distrib_of_nonneg h0 (Finset.sum_nonneg hs), ih hs]

/-- The sum of weighted combinations is the weighted combination of the sums, the weighted families being non-negative. -/
theorem sum_weighted {ι : Type*} (s : Finset ι) (k5 kh : EReal) (a b c d : ι → EReal)
    (ha : ∀ i ∈ s, 0 ≤ a i) (hc : ∀ i ∈ s, 0 ≤ c i) (hd : ∀ i ∈ s, 0 ≤ d i) :
    ∑ n ∈ s, (((k5 * a n + b n) + kh * c n) + kh * d n)
      = k5 * ∑ n ∈ s, a n + (((∑ n ∈ s, b n) + kh * ∑ n ∈ s, c n) + kh * ∑ n ∈ s, d n) := by
  rw [mul_sum_of_nonneg s a ha, mul_sum_of_nonneg s c hc, mul_sum_of_nonneg s d hd]
  simp only [Finset.sum_add_distrib, add_assoc]

/-! ## The 512 blocks of 128 samples are the 65536 samples -/

theorem sum_rows (g : Fin 65536 → EReal) :
    ∑ n ∈ Finset.range 512, ∑ b : Fin 128, g (rowOf n b) = ∑ r : Fin 65536, g r := by
  rw [← Fin.sum_univ_eq_sum_range (fun n => ∑ b : Fin 128, g (rowOf n b)) 512]
  rw [← Fintype.sum_prod_type']
  refine Fintype.sum_equiv (finProdFinEquiv.trans (finCongr (by norm_num))) _ _ ?_
  rintro ⟨n, b⟩
  congr 1
  apply Fin.ext
  have hn := n.isLt
  have hb := b.isLt
  simp only [rowOf, Equiv.trans_apply, finCongr_apply, Fin.coe_cast, finProdFinEquiv_apply_val]
  omega

/-! ## A block's total in the whole arrays' terms -/

theorem blockTotal_eq (P : SP.Idx → EReal) (RC : SRC.Idx → BitVec 32) (BX : SBX.Idx → EReal) (n : ℕ) :
    blockTotal P RC BX n
      = ((wFive * (∑ b : Fin 128, ∑ l : Fin 16, leafCoord P RC BX (rowOf n b) l)
          + ∑ b : Fin 128, ∑ l : Fin 16, leafConf P RC BX (rowOf n b) l)
        + wHalf * (∑ b : Fin 128, ∑ l : Fin 16, leafOther P RC BX (rowOf n b) l))
      + wHalf * (∑ b : Fin 128, ∑ cell : Fin 64, leafEmpty P RC (rowOf n b) cell) := rfl

/-- The two halves together are the 512 blocks. -/
theorem halves_eq (P : SP.Idx → EReal) (RC : SRC.Idx → BitVec 32) (BX : SBX.Idx → EReal) :
    halfTotal P RC BX 0 + halfTotal P RC BX 1 = ∑ n ∈ Finset.range 512, blockTotal P RC BX n := by
  unfold halfTotal
  rw [show (512 : ℕ) = 256 + 256 from rfl, Finset.sum_range_add]
  simp only [Nat.mul_zero, Nat.mul_one, Nat.zero_add]

/-- The block-by-block total is the sum-by-sum total. -/
theorem kerTotal_eq_refTotal (P : SP.Idx → EReal) (RC : SRC.Idx → BitVec 32) (BX : SBX.Idx → EReal) :
    kerTotal P RC BX = refTotal P RC BX := by
  unfold kerTotal refTotal
  refine congrArg (fun t => Ideal.div t wBatch) ?_
  rw [zero_add, halves_eq]
  simp only [blockTotal_eq, zero_add]
  rw [sum_weighted (Finset.range 512) wFive wHalf
    (fun n => ∑ b : Fin 128, ∑ l : Fin 16, leafCoord P RC BX (rowOf n b) l)
    (fun n => ∑ b : Fin 128, ∑ l : Fin 16, leafConf P RC BX (rowOf n b) l)
    (fun n => ∑ b : Fin 128, ∑ l : Fin 16, leafOther P RC BX (rowOf n b) l)
    (fun n => ∑ b : Fin 128, ∑ cell : Fin 64, leafEmpty P RC (rowOf n b) cell)
    (fun n _ => Finset.sum_nonneg fun b _ => Finset.sum_nonneg fun l _ => leafCoord_nonneg P RC BX _ l)
    (fun n _ => Finset.sum_nonneg fun b _ => Finset.sum_nonneg fun l _ => leafOther_nonneg P RC BX _ l)
    (fun n _ => Finset.sum_nonneg fun b _ => Finset.sum_nonneg fun c _ => leafEmpty_nonneg P RC _ c)]
  rw [sum_rows (fun r => ∑ l : Fin 16, leafCoord P RC BX r l),
    sum_rows (fun r => ∑ l : Fin 16, leafConf P RC BX r l),
    sum_rows (fun r => ∑ l : Fin 16, leafOther P RC BX r l),
    sum_rows (fun r => ∑ cell : Fin 64, leafEmpty P RC r cell)]

end Cert.LossSpec

end
-- ==== Proof.PreDecode.lean ====
/-
  What the precondition says of the label cells: every coordinate of `RC` is in `[0, 8)`.
  The precondition is a conjunction of four "all entries satisfy" reductions; its last two say `0 ≤ RC` and `RC < 8` as signed
  32-bit integers, entry by entry. A signed word that is non-negative and below 8 has unsigned value below 8.
-/
import proofs.«415334_j7971459302100_4_alg».proof.Pre_finite_inputs
import proofs.«415334_j7971459302100_4_alg».proof.Proof.Gen.Pre_finite_inputs
import Idealize.ShloMosaic.PureOps.Ideal
import Idealize.ShloMosaic.Lib.ReduceAll
import Idealize.ShloMosaic.Lib.StableHlo.Predicate

noncomputable section

namespace Cert.PreDecode

open Idealize.ShloMosaic

/-- The scalar shape has one index. -/
instance : Subsingleton Cert.Pre_finite_inputs.S_.Idx := ⟨fun a b => funext fun d => d.elim0⟩

/-- Under the precondition every label coordinate, read unsigned, is below 8. -/
theorem rc_lt_eight [Cert.Pre_finite_inputs.Facts]
    (P : FVec Ideal Cert.Pre_finite_inputs.S65536x8x8x8 .f32) (RC : IVec Cert.Pre_finite_inputs.S65536x16x2 32)
    (BX : FVec Ideal Cert.Pre_finite_inputs.S65536x16x3 .f32)
    (h : Cert.Pre_finite_inputs.fn (F := Ideal) P RC BX = fun _ => 1#1) :
    ∀ i, (RC i).toNat < 8 := by
  intro i
  have h0 := congrFun h (fun a => a.elim0)
  dsimp only [Cert.Pre_finite_inputs.fn, Cert.Pre_finite_inputs.fn_part1] at h0
  obtain ⟨h12, h15⟩ := IntOp.andi_eq_one.1 h0
  obtain ⟨_, h11⟩ := IntOp.andi_eq_one.1 h12
  have hge := Host.reduce_andi_all _ _ _ _ _ h11 i
  have hlt := Host.reduce_andi_all _ _ _ _ _ h15 i
  have hge' : (0#32).toInt ≤ (RC i).toInt := IntOp.cmpi_sge.1 hge
  have hlt' : (RC i).toInt < (8#32).toInt := IntOp.cmpi_slt.1 hlt
  have hz : (0#32).toInt = 0 := by decide
  have h8 : (8#32).toInt = 8 := by decide
  rw [hz] at hge'
  rw [h8] at hlt'
  rw [BitVec.toInt_eq_toNat_cond] at hge' hlt'
  have hb := (RC i).isLt
  split_ifs at hge' hlt' <;> omega

end Cert.PreDecode

end
-- ==== Proof.KernelGather.lean ====
/-
  The two places where the kernel's body is not pointwise, read at an index at the ideal instance.
  The one-hot matrix product: `onehot[b, l, cell] = 1` when `8 · row + col = cell` and `0` otherwise, so the product with the
  block's cells, `Σ cell, onehot[b, l, cell] · x[b, cell, d]`, is the one entry `x[b, 8 · row + col, d]` (every other term is
  `0 · x = 0`, whatever extended real `x` is), provided `8 · row + col` is one of the 64 cells: rows and columns in `[0, 8)`.
  The mark of a cell: the number of labels pointing at it, capped at `1`, is `1` when some label points at it and `0` when none does.
-/
import proofs.«415334_j7971459302100_4_alg».proof.Proof.Spec
import proofs.«415334_j7971459302100_4_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BodyValue

open Cert.KernelIdeal Cert.KernelIdeal.Gen Idealize.ShloMosaic Idealize.ShloMosaic.ValueIdx Cert.LossSpec

/-- The cell number `8 · row + col` of label `l` of sample `b`, rows in `v5`, columns in `v7` (each read modulo 8). -/
def cellV (v5 v7 : S128x16x1.Idx → BitVec 32) (b : Fin 128) (l : Fin 16) : Fin 64 :=
  ⟨(v5 (ix3 b l 0)).toNat % 8 * 8 + (v7 (ix3 b l 0)).toNat % 8, by omega⟩

/-! ## Layout operations of the one-hot payload read at an index -/

/-- Dropping the trailing unit axis keeps the two leading coordinates. -/
theorem cast_drop {α : Type} (v : S128x16x1.Idx → α) (h : S128x16x1.ShapeCasts S128x16) (b : Fin 128) (l : Fin 16) :
    shapeCast S128x16 v h (ix2 b l) = v (ix3 b l 0) := by
  refine shapeCast_apply v h _ _ ?_
  rw [Shape.rowMajor_val_two, Shape.rowMajor_val_three]
  show (b.val * 16 + l.val) * 1 + 0 = b.val * 16 + l.val
  omega

/-- Adding a trailing unit axis keeps the two leading coordinates. -/
theorem cast_add {α : Type} (v : S128x16.Idx → α) (h : S128x16.ShapeCasts S128x16x1) (b : Fin 128) (l : Fin 16) (u : Fin 1) :
    shapeCast S128x16x1 v h (ix3 b l u) = v (ix2 b l) := by
  refine shapeCast_apply v h _ _ ?_
  rw [Shape.rowMajor_val_two, Shape.rowMajor_val_three]
  show b.val * 16 + l.val = (b.val * 16 + l.val) * 1 + u.val
  omega

/-- A broadcast along the trailing unit axis reads its one entry. -/
theorem bcast_lane {α : Type} (v : S128x16x1.Idx → α) (h : S128x16x1.Broadcasts S128x16x64) (b : Fin 128) (l : Fin 16) (k : Fin 64) :
    broadcastTo S128x16x64 v h (ix3 b l k) = v (ix3 b l 0) := by
  refine broadcastTo_apply v h _ _ ?_
  intro a
  match a with
  | ⟨0, _⟩ => rfl
  | ⟨1, _⟩ => rfl
  | ⟨2, _⟩ => rfl

/-- For a row `r` and a column `c` below 8 the word `8 · r + c` does not wrap, so it equals the word of `k < 64` exactly
    when `8 · r + c = k` as numbers; the compare's bit, widened and converted, is then the extended real `1` or `0`. -/
theorem onehot_word (r c : BitVec 32) (hr : r.toNat < 8) (hc : c.toNat < 8) (k : Fin 64) :
    (FloatOps.sitofp (F := Ideal) .f32 (BitVec.setWidth 32 (IntOp.cmpi .eq (r * 8#32 + c) (BitVec.ofNat 32 k.val))) : EReal)
      = if r.toNat % 8 * 8 + c.toNat % 8 = k.val then 1 else 0 := by
  have hw : (r * 8#32 + c = BitVec.ofNat 32 k.val) ↔ r.toNat % 8 * 8 + c.toNat % 8 = k.val := by
    rw [← BitVec.toNat_inj]
    simp only [BitVec.toNat_add, BitVec.toNat_mul, BitVec.toNat_ofNat]
    have := k.isLt
    omega
  split_ifs with h
  · rw [hw.2 h]
    have e : IntOp.cmpi .eq (BitVec.ofNat 32 k.val) (BitVec.ofNat 32 k.val) = 1#1 := IntOp.cmpi_eq.2 rfl
    rw [e]
    show (((BitVec.setWidth 32 1#1).toInt : ℝ) : EReal) = 1
    have e2 : (BitVec.setWidth 32 1#1).toInt = 1 := by decide
    rw [e2]; simp
  · have e : IntOp.cmpi .eq (r * 8#32 + c) (BitVec.ofNat 32 k.val) = 0#1 :=
      eq_zero_of_ne_one (fun e => h (hw.1 (IntOp.cmpi_eq.1 e)))
    rw [e]
    show (((BitVec.setWidth 32 0#1).toInt : ℝ) : EReal) = 0
    have e2 : (BitVec.setWidth 32 0#1).toInt = 0 := by decide
    rw [e2]; simp

/-- The one-hot array: `1` at the label's cell, `0` elsewhere. -/
theorem pay4_apply (v5 v7 : Vec Ideal S128x16x1 .i32) (h5 : ∀ y, (v5 y).toNat < 8) (h7 : ∀ y, (v7 y).toNat < 8)
    (b : Fin 128) (l : Fin 16) (k : Fin 64) :
    k0_pay4 (F := Ideal) v5 v7 (ix3 b l k) = if cellV v5 v7 b l = k then 1 else 0 := by
  unfold k0_pay4
  rw [sitofp_apply, extui_apply]
  show FloatOps.sitofp FTy.f32 (BitVec.setWidth 32 (IntOp.cmpi .eq (broadcastTo S128x16x64 _ _ (ix3 b l k))
    (iota .tc S128x16x64 32 [2] _ (ix3 b l k)))) = _
  rw [bcast_lane, cast_add, iota_single_apply]
  show FloatOps.sitofp .f32 (BitVec.setWidth 32 (IntOp.cmpi .eq
    (shapeCast S128x16 v5 _ (ix2 b l) * 8#32 + shapeCast S128x16 v7 _ (ix2 b l)) (BitVec.ofNat 32 k.val))) = _
  rw [cast_drop, cast_drop, onehot_word _ _ (h5 _) (h7 _)]
  exact if_congr (by simp [cellV, Fin.ext_iff]) rfl rfl

/-! ## The product's operand indices -/

/-- The left operand of the product at `(b, l, d)` and contraction position `i` is read at `(b, l, i)`. -/
theorem lhs_read (b : Fin 128) (l : Fin 16) (d : Fin 8) (i : Fin 64) :
    dot_S128x16x64_S128x64x8_S128x16x8_2_1_1_2_0_0.lhsIdx (ix3 b l d)
      ((contrEquiv1 dot_S128x16x64_S128x64x8_S128x16x8_2_1_1_2_0_0 64 rfl rfl).symm i) = ix3 b l i := by
  have c3 := contrEquiv1_symm_val dot_S128x16x64_S128x64x8_S128x16x8_2_1_1_2_0_0 64 rfl rfl i
  funext ax; apply Fin.ext
  match ax with
  | ⟨0, _⟩ => simp [DotDims.lhsIdx, dot_S128x16x64_S128x64x8_S128x16x8_2_1_1_2_0_0]; rfl
  | ⟨1, _⟩ => simp [DotDims.lhsIdx, dot_S128x16x64_S128x64x8_S128x16x8_2_1_1_2_0_0]; rfl
  | ⟨2, _⟩ => simp [DotDims.lhsIdx, dot_S128x16x64_S128x64x8_S128x16x8_2_1_1_2_0_0]; exact c3

/-- The right operand of the product at `(b, l, d)` and contraction position `i` is read at `(b, i, d)`. -/
theorem rhs_read (b : Fin 128) (l : Fin 16) (d : Fin 8) (i : Fin 64) :
    dot_S128x16x64_S128x64x8_S128x16x8_2_1_1_2_0_0.rhsIdx (ix3 b l d)
      ((contrEquiv1 dot_S128x16x64_S128x64x8_S128x16x8_2_1_1_2_0_0 64 rfl rfl).symm i) = ix3 b i d := by
  have c3 := contrEquiv1_symm_val dot_S128x16x64_S128x64x8_S128x16x8_2_1_1_2_0_0 64 rfl rfl i
  funext ax; apply Fin.ext
  match ax with
  | ⟨0, _⟩ => simp [DotDims.rhsIdx, dot_S128x16x64_S128x64x8_S128x16x8_2_1_1_2_0_0]; rfl
  | ⟨1, _⟩ => simp [DotDims.rhsIdx, dot_S128x16x64_S128x64x8_S128x16x8_2_1_1_2_0_0]; exact c3
  | ⟨2, _⟩ => simp [DotDims.rhsIdx, dot_S128x16x64_S128x64x8_S128x16x8_2_1_1_2_0_0]; rfl

/-- The product of the one-hot rows with the block's cells selects the responsible cell. -/
theorem onehot_matmul (v3 : Vec Ideal S128x64x8 .f32) (v5 v7 : Vec Ideal S128x16x1 .i32)
    (h5 : ∀ y, (v5 y).toNat < 8) (h7 : ∀ y, (v7 y).toNat < 8) (b : Fin 128) (l : Fin 16) (d : Fin 8) :
    k0_pay5 (F := Ideal) v3 v5 v7 (ix3 b l d) = v3 (ix3 b (cellV v5 v7 b l) d) := by
  unfold k0_pay5 k0_pay3
  show FloatOps.matmul dot_S128x16x64_S128x64x8_S128x16x8_2_1_1_2_0_0 (some .fp32) (k0_pay4 (F := Ideal) v5 v7)
    (shapeCast S128x64x8 v3 _) (constant S128x16x8 .f32 0x00000000#32) (ix3 b l d) = _
  rw [shapeCast_self, Ideal.matmul_constant_zero_apply,
    ← Equiv.sum_comp (contrEquiv1 dot_S128x16x64_S128x64x8_S128x16x8_2_1_1_2_0_0 64 rfl rfl).symm]
  simp only [lhs_read, rhs_read, pay4_apply v5 v7 h5 h7]
  rw [Finset.sum_eq_single (cellV v5 v7 b l)]
  · rw [if_pos rfl, one_mul]
  · intro i _ hne
    rw [if_neg (Ne.symm hne), zero_mul]
  · intro h
    exact absurd (Finset.mem_univ _) h

/-! ## The mark of a cell -/

/-- The word of the one denotes `1`. -/
private theorem one_word : (Ideal.ofBits .f32 0x3F800000#32 : EReal) = 1 := by
  simp [Ideal.ofBits, Ideal.ieee, -EReal.coe_mul]; norm_num

/-- The index the sum over the labels reads at label `k` is `(b, k, cell)`. -/
theorem lift_read (h : S128x16x64.Reduces [1] S128x64) (b : Fin 128) (cell : Fin 64) (k : Fin 16) :
    h.lift (ix2 b cell) k = ix3 b k cell := by
  funext ax; apply Fin.ext
  match ax with
  | ⟨0, _⟩ => rfl
  | ⟨1, _⟩ => rfl
  | ⟨2, _⟩ => rfl

/-- A count of hits capped at `1` is `1` when there is a hit and `0` when there is none. -/
theorem capped_count (p : Fin 16 → Prop) [DecidablePred p] [Decidable (∃ l, p l)] :
    min (∑ l : Fin 16, (if p l then (1 : EReal) else 0)) 1 = if ∃ l, p l then 1 else 0 := by
  have nn : ∀ l ∈ (Finset.univ : Finset (Fin 16)), (0 : EReal) ≤ if p l then (1 : EReal) else 0 := by
    intro l _
    split_ifs
    · exact zero_le_one
    · exact le_rfl
  split_ifs with hex
  · obtain ⟨l0, hl0⟩ := hex
    have h1 : (1 : EReal) ≤ ∑ l : Fin 16, (if p l then (1 : EReal) else 0) := by
      have := Finset.single_le_sum nn (Finset.mem_univ l0)
      rwa [if_pos hl0] at this
    exact min_eq_right h1
  · have h0 : ∑ l : Fin 16, (if p l then (1 : EReal) else 0) = 0 :=
      Finset.sum_eq_zero fun l _ => if_neg (fun hp => hex ⟨l, hp⟩)
    rw [h0]
    exact min_eq_left zero_le_one

/-- The capped count of the labels pointing at a cell is its mark. -/
theorem mask_read (v5 v7 : Vec Ideal S128x16x1 .i32) (h5 : ∀ y, (v5 y).toNat < 8) (h7 : ∀ y, (v7 y).toNat < 8)
    (b : Fin 128) (cell : Fin 64) :
    k0_pay32 (F := Ideal) (k0_pay4 (F := Ideal) v5 v7) (ix2 b cell) = if ∃ l : Fin 16, cellV v5 v7 b l = cell then 1 else 0 := by
  unfold k0_pay32
  show min (multiReduction .add [1] S128x64 (k0_pay4 (F := Ideal) v5 v7) 0x00000000#32 _ _ _ (ix2 b cell))
    (Ideal.ofBits .f32 0x3F800000#32) = _
  rw [Ideal.multiReduction_add_single (k0_pay4 (F := Ideal) v5 v7) 0x00000000#32 reduces_S128x16x64_S128x64 (.inl rfl) rfl
    (ix2 b cell), one_word]
  have hs : ∀ k : Fin 16, k0_pay4 (F := Ideal) v5 v7 (reduces_S128x16x64_S128x64.lift (ix2 b cell) k)
      = if cellV v5 v7 b k = cell then (1 : EReal) else 0 := by
    intro k
    rw [lift_read, pay4_apply v5 v7 h5 h7]
  exact (congrArg (fun t : EReal => min t 1) (Finset.sum_congr rfl fun k _ => hs k)).trans (capped_count _)

end Cert.KernelIdeal.BodyValue

end
-- ==== Proof.KernelBody.lean ====
/-
  What one run of the kernel's body leaves in the output block, at the ideal instance: every entry of the [1, 8, 128] block
  is the entry it found there (or zero, at the first point of a half) plus the block's weighted total `blkTotal`.
-/
import proofs.«415334_j7971459302100_4_alg».proof.Proof.Spec
import proofs.«415334_j7971459302100_4_alg».proof.Proof.Gen.KernelIdeal.Frame
import proofs.«415334_j7971459302100_4_alg».proof.Proof.KernelGather
import Idealize.ShloMosaic.Lib.Pipeline.Value
import Idealize.ShloMosaic.Lib.Tactic
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.TcCoe Idealize.SL.Sem
open Idealize.ShloMosaic.ValueIdx Cert.LossSpec

/-! ## Layout operations of the body, read at coordinates -/

section Layout
variable {α : Type}

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-3 array cut to one entry of its last axis reads, at `(i, j, u)`, the source at `(i, j, k)`, `k` the offset. -/
theorem slice3_last_apply {n0 n1 n2 : ℕ} (o : ℕ) (X : (⟨3, ![n0, n1, n2]⟩ : Shape).Idx → α)
    (h : (⟨3, ![n0, n1, n2]⟩ : Shape).Slices ![0, 0, o] ⟨3, ![n0, n1, 1]⟩)
    (i : Fin n0) (j : Fin n1) (u : Fin 1) (k : Fin n2) (hk : k.val = o) :
    extractStridedSlice ⟨3, ![n0, n1, 1]⟩ ![0, 0, o] X h (ix3 i j u) = X (ix3 i j k) :=
  extractStridedSlice_apply _ _ _ _ _ (fun ax => by
    match ax with
    | ⟨0, _⟩ => exact (Nat.zero_add _).symm
    | ⟨1, _⟩ => exact (Nat.zero_add _).symm
    | ⟨2, _⟩ =>
      have hu : u.val = 0 := by omega
      show k.val = o + u.val
      rw [hu, hk, Nat.add_zero])

end Layout

/-! ## The two add-reductions, lanes then rows -/

/-- A `[128, n]` vector summed along its lanes, then (as `[128, 1]`) along its rows, read (as `[1, 1]`) at its one index:
    the double sum. -/
theorem dsum_apply {n : ℕ} (w : FVec Ideal ⟨2, ![128, n]⟩ .f32) (h1 : (⟨2, ![128, n]⟩ : Shape).Reduces [1] S128)
    (hφ : FKind.Formats .f32) (hacc : (0x00000000#32 : BitVec 32) = FKind.add.neutral .f32 hφ) (j : S1x1.Idx) :
    shapeCast S1x1 (multiReduction .add [0] S1
        (shapeCast S128x1 (multiReduction .add [1] S128 w 0x00000000#32 h1 hφ hacc) shapeCasts_S128_S128x1)
        0x00000000#32 reduces_S128x1_S1 hφ hacc) shapeCasts_S1_S1x1 j
      = ∑ b : Fin 128, ∑ l : Fin n, w (ix2 b l) := by
  obtain ⟨u, v, rfl⟩ : ∃ u v, j = ix2 u v := ⟨j 0, j 1, eq_ix2 j⟩
  refine (shapeCast_a_1a_apply _ _ u v).trans ?_
  refine (Ideal.multiReduction_add_single _ _ reduces_S128x1_S1 hφ hacc _).trans ?_
  refine Finset.sum_congr rfl fun (b : Fin 128) _ => ?_
  have e1 : reduces_S128x1_S1.lift (ix1 v) b = ix2 b v := by
    funext a; match a with | ⟨0, _⟩ => rfl | ⟨1, _⟩ => rfl
  refine (congrArg _ e1).trans ?_
  refine (shapeCast_a_a1_apply _ _ b v).trans ?_
  refine (Ideal.multiReduction_add_single _ _ h1 hφ hacc _).trans ?_
  refine Finset.sum_congr rfl fun (l : Fin n) _ => ?_
  have e2 : h1.lift (ix1 b) l = ix2 b l := by
    funext a; match a with | ⟨0, _⟩ => rfl | ⟨1, _⟩ => rfl
  exact congrArg w e2

/-! ## The body's values, read at coordinates -/

section Leaves

/-- The block, cast to its own shape. -/
theorem pay3_eq (v3 : Vec Ideal S128x64x8 .f32) : k0_pay3 (F := Ideal) v3 = v3 := shapeCast_self v3 _

/-- A label's box coordinate, the unit axis dropped. -/
theorem pay6_apply (v19 : Vec Ideal S128x16x1 .f32) (b : Fin 128) (l : Fin 16) :
    k0_pay6 (F := Ideal) v19 (ix2 b l) = v19 (ix3 b l 0) := shapeCast_ab1_ab_apply v19 _ b l
theorem pay7_apply (v21 : Vec Ideal S128x16x1 .f32) (b : Fin 128) (l : Fin 16) :
    k0_pay7 (F := Ideal) v21 (ix2 b l) = v21 (ix3 b l 0) := shapeCast_ab1_ab_apply v21 _ b l
theorem pay8_apply (v23 : Vec Ideal S128x16x1 .f32) (b : Fin 128) (l : Fin 16) :
    k0_pay8 (F := Ideal) v23 (ix2 b l) = v23 (ix3 b l 0) := shapeCast_ab1_ab_apply v23 _ b l

variable (v3 : Vec Ideal S128x64x8 .f32) (v5 v7 : Vec Ideal S128x16x1 .i32) (v18 : FVec Ideal S128x16x8 .f32)
  (v4 : FVec Ideal S128x64x8 .f32)

/-- Components 0 to 4 of the responsible cell's numbers. -/
theorem pay9_apply (b : Fin 128) (l : Fin 16) : k0_pay9 (F := Ideal) v3 v5 v7 (ix2 b l) = k0_pay5 (F := Ideal) v3 v5 v7 (ix3 b l 0) :=
  (shapeCast_ab1_ab_apply _ _ b l).trans (slice3_last_apply 0 _ _ b l 0 0 rfl)
theorem pay10_apply (b : Fin 128) (l : Fin 16) : k0_pay10 (F := Ideal) v3 v5 v7 (ix2 b l) = k0_pay5 (F := Ideal) v3 v5 v7 (ix3 b l 1) :=
  (shapeCast_ab1_ab_apply _ _ b l).trans (slice3_last_apply 1 _ _ b l 0 1 rfl)
theorem pay11_apply (b : Fin 128) (l : Fin 16) : k0_pay11 (F := Ideal) v3 v5 v7 (ix2 b l) = k0_pay5 (F := Ideal) v3 v5 v7 (ix3 b l 2) :=
  (shapeCast_ab1_ab_apply _ _ b l).trans (slice3_last_apply 2 _ _ b l 0 2 rfl)
theorem pay12_apply (b : Fin 128) (l : Fin 16) : k0_pay12 (F := Ideal) v3 v5 v7 (ix2 b l) = k0_pay5 (F := Ideal) v3 v5 v7 (ix3 b l 3) :=
  (shapeCast_ab1_ab_apply _ _ b l).trans (slice3_last_apply 3 _ _ b l 0 3 rfl)
theorem pay13_apply (b : Fin 128) (l : Fin 16) : k0_pay13 (F := Ideal) v3 v5 v7 (ix2 b l) = k0_pay5 (F := Ideal) v3 v5 v7 (ix3 b l 4) :=
  (shapeCast_ab1_ab_apply _ _ b l).trans (slice3_last_apply 4 _ _ b l 0 4 rfl)
/-- Components 5 to 7. -/
theorem pay14_apply (b : Fin 128) (l : Fin 16) : k0_pay14 (F := Ideal) v18 (ix2 b l) = v18 (ix3 b l 5) :=
  (shapeCast_ab1_ab_apply _ _ b l).trans (slice3_last_apply 5 _ _ b l 0 5 rfl)
theorem pay15_apply (b : Fin 128) (l : Fin 16) : k0_pay15 (F := Ideal) v18 (ix2 b l) = v18 (ix3 b l 6) :=
  (shapeCast_ab1_ab_apply _ _ b l).trans (slice3_last_apply 6 _ _ b l 0 6 rfl)
theorem pay16_apply (b : Fin 128) (l : Fin 16) : k0_pay16 (F := Ideal) v18 (ix2 b l) = v18 (ix3 b l 7) :=
  (shapeCast_ab1_ab_apply _ _ b l).trans (slice3_last_apply 7 _ _ b l 0 7 rfl)
/-- A cell's second confidence, and its first one squared. -/
theorem pay33_apply (b : Fin 128) (cell : Fin 64) : k0_pay33 (F := Ideal) v4 (ix2 b cell) = v4 (ix3 b cell 7) :=
  (shapeCast_ab1_ab_apply _ _ b cell).trans (slice3_last_apply 7 _ _ b cell 0 7 rfl)
theorem pay34_apply (b : Fin 128) (cell : Fin 64) :
    k0_pay34 (F := Ideal) v4 (ix2 b cell) = v4 (ix3 b cell 3) * v4 (ix3 b cell 3) := by
  have e : ∀ x : FVec Ideal S128x64 .f32, mulf x x (ix2 b cell) = x (ix2 b cell) * x (ix2 b cell) := fun _ => rfl
  refine (e _).trans ?_
  rw [show shapeCast S128x64 (extractStridedSlice S128x64x1 ![0, 0, 3] v4 slices_S128x64x8_o0_0_3_S128x64x1)
      shapeCasts_S128x64x1_S128x64 (ix2 b cell) = v4 (ix3 b cell 3) from
    (shapeCast_ab1_ab_apply _ _ b cell).trans (slice3_last_apply 3 _ _ b cell 0 3 rfl)]

end Leaves

/-! ## One label's terms as functions of its numbers -/

/-- The squared distance, from the chosen bit and the nine numbers. -/
def coordS (c : BitVec 1) (p0 p1 p2 p4 p5 p6 g0 g1 g2 : EReal) : EReal :=
  ((pick c p4 p0 - g0) * (pick c p4 p0 - g0) + (pick c p5 p1 - g1) * (pick c p5 p1 - g1))
    + (pick c p6 p2 - g2) * (pick c p6 p2 - g2)
/-- The squared difference of the better ratio and its box's confidence. -/
def confS (c : BitVec 1) (iA iB p3 p7 : EReal) : EReal := (pick c iB iA - pick c p7 p3) * (pick c iB iA - pick c p7 p3)
/-- The squared difference of the worse ratio and the other box's confidence. -/
def otherS (c : BitVec 1) (iA iB p3 p7 : EReal) : EReal := (pick c iA iB - pick c p3 p7) * (pick c iA iB - pick c p3 p7)

section Pointwise
variable (v18 : FVec Ideal S128x16x8 .f32) (v20 v22 v24 v26 v28 v30 v32 v34 v36 v38 v40 : FVec Ideal S128x16 .f32)

/-- The first box's ratio at a label. -/
theorem pay17_apply (j : S128x16.Idx) :
    k0_pay17 (F := Ideal) v20 v22 v24 v26 v28 v30 j = boxIou (v26 j) (v28 j) (v30 j) (v20 j) (v22 j) (v24 j) := by
  unfold boxIou
  rw [← Ideal.ofBits_zero_f32]
  rfl

/-- The second box's ratio at a label. -/
theorem pay27_apply (j : S128x16.Idx) :
    k0_pay27 (F := Ideal) (k0_pay18 v18 v34) (k0_pay19 v18 v34) (k0_pay20 v18) (k0_pay21 v18) (k0_pay22 v20 v24) (k0_pay23 v20 v24)
        (k0_pay24 v22 v24) (k0_pay25 v22 v24) (k0_pay26 v18 v20 v22 v24 v34) j
      = boxIou (v34 j) (k0_pay14 v18 j) (k0_pay15 v18 j) (v20 j) (v22 j) (v24 j) := by
  unfold boxIou
  rw [← Ideal.ofBits_zero_f32]
  rfl

variable (v70 v71 v72 v73 v74 v75 v76 v77 v78 v89 : FVec Ideal S128x16 .f32)

/-- The first sum: over the block's labels, of the squared distances. -/
theorem pay29_apply (j : S1x1.Idx) :
    k0_pay29 (F := Ideal) v20 v22 v24 v26 v28 v30 v34 v36 v38 v70 v71 v72 v73 v74 v75 v76 v77 v78 v89 j
      = ∑ b : Fin 128, ∑ l : Fin 16,
          coordS (Ideal.cmp .ogt (k0_pay27 v71 v72 v73 v74 v75 v76 v77 v78 v89 (ix2 b l)) (v70 (ix2 b l)))
            (v26 (ix2 b l)) (v28 (ix2 b l)) (v30 (ix2 b l)) (v34 (ix2 b l)) (v36 (ix2 b l)) (v38 (ix2 b l))
            (v20 (ix2 b l)) (v22 (ix2 b l)) (v24 (ix2 b l)) := by
  unfold k0_pay29
  exact dsum_apply _ reduces_S128x16_S128 _ _ j

/-- The second sum. -/
theorem pay30_apply (j : S1x1.Idx) :
    k0_pay30 (F := Ideal) v32 v40 v70 v71 v72 v73 v74 v75 v76 v77 v78 v89 j
      = ∑ b : Fin 128, ∑ l : Fin 16,
          confS (Ideal.cmp .ogt (k0_pay27 v71 v72 v73 v74 v75 v76 v77 v78 v89 (ix2 b l)) (v70 (ix2 b l)))
            (v70 (ix2 b l)) (k0_pay27 v71 v72 v73 v74 v75 v76 v77 v78 v89 (ix2 b l)) (v32 (ix2 b l)) (v40 (ix2 b l)) := by
  unfold k0_pay30
  exact dsum_apply _ reduces_S128x16_S128 _ _ j

/-- The third sum. -/
theorem pay31_apply (j : S1x1.Idx) :
    k0_pay31 (F := Ideal) v32 v40 v70 v71 v72 v73 v74 v75 v76 v77 v78 v89 j
      = ∑ b : Fin 128, ∑ l : Fin 16,
          otherS (Ideal.cmp .ogt (k0_pay27 v71 v72 v73 v74 v75 v76 v77 v78 v89 (ix2 b l)) (v70 (ix2 b l)))
            (v70 (ix2 b l)) (k0_pay27 v71 v72 v73 v74 v75 v76 v77 v78 v89 (ix2 b l)) (v32 (ix2 b l)) (v40 (ix2 b l)) := by
  unfold k0_pay31
  exact dsum_apply _ reduces_S128x16_S128 _ _ j

end Pointwise

/-- The stored block: what was there, plus the weighted total of the four sums. -/
theorem pay1_apply (v120 v126 v132 : FVec Ideal S1x1 .f32) (v135 v139 v140 : FVec Ideal S128x64 .f32)
    (v159 : Vec Ideal S1x8x128 .f32) (y : S1x8x128.Idx) :
    k0_pay1 (F := Ideal) v120 v126 v132 v135 v139 v140 v159 y
      = v159 y + (((wFive * v120 (ix2 0 0) + v126 (ix2 0 0)) + wHalf * v132 (ix2 0 0))
          + wHalf * ∑ b : Fin 128, ∑ cell : Fin 64,
              (v140 (ix2 b cell) + v139 (ix2 b cell) * v139 (ix2 b cell)) * (Ideal.ofBits .f32 0x3F800000#32 - v135 (ix2 b cell))) := by
  obtain ⟨u, r, c, rfl⟩ : ∃ u r c, y = ix3 u r c := ⟨y 0, y 1, y 2, eq_ix3 y⟩
  obtain rfl : u = 0 := Subsingleton.elim _ _
  unfold k0_pay1
  refine (shapeCast_ab_1ab_apply _ _ 0 r c).trans ?_
  refine (addf_apply _ _ _).trans ?_
  refine congrArg₂ (· + ·) (shapeCast_1ab_ab_apply _ _ r c) ?_
  refine (broadcastTo_apply _ _ (ix2 r c) (ix2 0 0) fun a => by
    match a with
    | ⟨0, _⟩ => rfl
    | ⟨1, _⟩ => rfl).trans ?_
  rw [shapeCast_self]
  refine (addf_apply _ _ _).trans ?_
  refine congrArg₂ (· + ·) rfl ?_
  refine (mulf_apply _ _ _).trans ?_
  refine congrArg₂ (· * ·) rfl ?_
  exact dsum_apply _ reduces_S128x64_S128 _ _ _

/-! ## The stored block as a function of the six loaded vectors -/

section Body
variable (v3 : Vec Ideal S128x64x8 .f32) (v5 v7 : Vec Ideal S128x16x1 .i32) (v19 v21 v23 : Vec Ideal S128x16x1 .f32)

local notation "A18" => k0_pay5 (F := Ideal) v3 v5 v7
local notation "A20" => k0_pay6 (F := Ideal) v19
local notation "A22" => k0_pay7 (F := Ideal) v21
local notation "A24" => k0_pay8 (F := Ideal) v23
local notation "A26" => k0_pay9 (F := Ideal) v3 v5 v7
local notation "A28" => k0_pay10 (F := Ideal) v3 v5 v7
local notation "A30" => k0_pay11 (F := Ideal) v3 v5 v7
local notation "A32" => k0_pay12 (F := Ideal) v3 v5 v7
local notation "A34" => k0_pay13 (F := Ideal) v3 v5 v7
local notation "A36" => k0_pay14 (F := Ideal) A18
local notation "A38" => k0_pay15 (F := Ideal) A18
local notation "A40" => k0_pay16 (F := Ideal) A18
local notation "A70" => k0_pay17 (F := Ideal) A20 A22 A24 A26 A28 A30
local notation "A71" => k0_pay18 (F := Ideal) A18 A34
local notation "A72" => k0_pay19 (F := Ideal) A18 A34
local notation "A73" => k0_pay20 (F := Ideal) A18
local notation "A74" => k0_pay21 (F := Ideal) A18
local notation "A75" => k0_pay22 (F := Ideal) A20 A24
local notation "A76" => k0_pay23 (F := Ideal) A20 A24
local notation "A77" => k0_pay24 (F := Ideal) A22 A24
local notation "A78" => k0_pay25 (F := Ideal) A22 A24
local notation "A89" => k0_pay26 (F := Ideal) A18 A20 A22 A24 A34

/-- What the body stores, from the block, the two slices of the labels' cells and the three of their boxes, and the
    block found. -/
def bodyVal (v159 : Vec Ideal S1x8x128 .f32) : FVec Ideal S1x8x128 .f32 :=
  k0_pay1 (F := Ideal)
    (k0_pay29 A20 A22 A24 A26 A28 A30 A34 A36 A38 A70 A71 A72 A73 A74 A75 A76 A77 A78 A89)
    (k0_pay30 A32 A40 A70 A71 A72 A73 A74 A75 A76 A77 A78 A89)
    (k0_pay31 A32 A40 A70 A71 A72 A73 A74 A75 A76 A77 A78 A89)
    (k0_pay32 (k0_pay4 v5 v7)) (k0_pay33 (k0_pay3 v3)) (k0_pay34 (k0_pay3 v3)) v159

variable (h5 : ∀ y, (v5 y).toNat < 8) (h7 : ∀ y, (v7 y).toNat < 8)
  (cell : Fin 128 → Fin 16 → Fin 64) (hcell : ∀ b l, cellV v5 v7 b l = cell b l)
  (g : Fin 128 → Fin 16 → Fin 3 → EReal) (hg0 : ∀ b l, v19 (ix3 b l 0) = g b l 0)
  (hg1 : ∀ b l, v21 (ix3 b l 0) = g b l 1) (hg2 : ∀ b l, v23 (ix3 b l 0) = g b l 2)

include h5 h7 hcell in
/-- The responsible cell's numbers. -/
theorem pb_apply (b : Fin 128) (l : Fin 16) (d : Fin 8) : A18 (ix3 b l d) = v3 (ix3 b (cell b l) d) :=
  (onehot_matmul v3 v5 v7 h5 h7 b l d).trans (by rw [hcell])

include h5 h7 hcell hg0 hg1 hg2 in
/-- The two ratios at a label. -/
theorem iou_at (b : Fin 128) (l : Fin 16) :
    A70 (ix2 b l) = iouA (fun d => v3 (ix3 b (cell b l) d)) (g b l)
    ∧ k0_pay27 (F := Ideal) A71 A72 A73 A74 A75 A76 A77 A78 A89 (ix2 b l) = iouB (fun d => v3 (ix3 b (cell b l) d)) (g b l) := by
  refine ⟨?_, ?_⟩
  · rw [pay17_apply, pay9_apply, pay10_apply, pay11_apply, pay6_apply, pay7_apply, pay8_apply,
      pb_apply v3 v5 v7 h5 h7 cell hcell, pb_apply v3 v5 v7 h5 h7 cell hcell, pb_apply v3 v5 v7 h5 h7 cell hcell, hg0, hg1, hg2]
    rfl
  · rw [pay27_apply, pay13_apply, pay14_apply, pay15_apply, pay6_apply, pay7_apply, pay8_apply,
      pb_apply v3 v5 v7 h5 h7 cell hcell, pb_apply v3 v5 v7 h5 h7 cell hcell, pb_apply v3 v5 v7 h5 h7 cell hcell, hg0, hg1, hg2]
    rfl

include h5 h7 hcell hg0 hg1 hg2 in
theorem coord_at (b : Fin 128) (l : Fin 16) :
    coordS (Ideal.cmp .ogt (k0_pay27 (F := Ideal) A71 A72 A73 A74 A75 A76 A77 A78 A89 (ix2 b l)) (A70 (ix2 b l)))
        (A26 (ix2 b l)) (A28 (ix2 b l)) (A30 (ix2 b l)) (A34 (ix2 b l)) (A36 (ix2 b l)) (A38 (ix2 b l))
        (A20 (ix2 b l)) (A22 (ix2 b l)) (A24 (ix2 b l))
      = coordTerm (fun d => v3 (ix3 b (cell b l) d)) (g b l) := by
  rw [(iou_at v3 v5 v7 v19 v21 v23 h5 h7 cell hcell g hg0 hg1 hg2 b l).1,
    (iou_at v3 v5 v7 v19 v21 v23 h5 h7 cell hcell g hg0 hg1 hg2 b l).2,
    pay9_apply, pay10_apply, pay11_apply, pay13_apply, pay14_apply, pay15_apply, pay6_apply, pay7_apply, pay8_apply]
  simp only [pb_apply v3 v5 v7 h5 h7 cell hcell, hg0, hg1, hg2]
  rfl

include h5 h7 hcell hg0 hg1 hg2 in
theorem conf_at (b : Fin 128) (l : Fin 16) :
    confS (Ideal.cmp .ogt (k0_pay27 (F := Ideal) A71 A72 A73 A74 A75 A76 A77 A78 A89 (ix2 b l)) (A70 (ix2 b l)))
        (A70 (ix2 b l)) (k0_pay27 (F := Ideal) A71 A72 A73 A74 A75 A76 A77 A78 A89 (ix2 b l)) (A32 (ix2 b l)) (A40 (ix2 b l))
      = confTerm (fun d => v3 (ix3 b (cell b l) d)) (g b l) := by
  rw [(iou_at v3 v5 v7 v19 v21 v23 h5 h7 cell hcell g hg0 hg1 hg2 b l).1,
    (iou_at v3 v5 v7 v19 v21 v23 h5 h7 cell hcell g hg0 hg1 hg2 b l).2, pay12_apply, pay16_apply]
  simp only [pb_apply v3 v5 v7 h5 h7 cell hcell]
  rfl

include h5 h7 hcell hg0 hg1 hg2 in
theorem other_at (b : Fin 128) (l : Fin 16) :
    otherS (Ideal.cmp .ogt (k0_pay27 (F := Ideal) A71 A72 A73 A74 A75 A76 A77 A78 A89 (ix2 b l)) (A70 (ix2 b l)))
        (A70 (ix2 b l)) (k0_pay27 (F := Ideal) A71 A72 A73 A74 A75 A76 A77 A78 A89 (ix2 b l)) (A32 (ix2 b l)) (A40 (ix2 b l))
      = otherTerm (fun d => v3 (ix3 b (cell b l) d)) (g b l) := by
  rw [(iou_at v3 v5 v7 v19 v21 v23 h5 h7 cell hcell g hg0 hg1 hg2 b l).1,
    (iou_at v3 v5 v7 v19 v21 v23 h5 h7 cell hcell g hg0 hg1 hg2 b l).2, pay12_apply, pay16_apply]
  simp only [pb_apply v3 v5 v7 h5 h7 cell hcell]
  rfl

include h5 h7 hcell in
theorem empty_at (b : Fin 128) (c : Fin 64) :
    (k0_pay34 (F := Ideal) (k0_pay3 v3) (ix2 b c) + k0_pay33 (F := Ideal) (k0_pay3 v3) (ix2 b c) * k0_pay33 (F := Ideal) (k0_pay3 v3) (ix2 b c))
        * (Ideal.ofBits .f32 0x3F800000#32 - k0_pay32 (F := Ideal) (k0_pay4 v5 v7) (ix2 b c))
      = emptyTerm (v3 (ix3 b c 3)) (v3 (ix3 b c 7)) (if ∃ l : Fin 16, cell b l = c then 1 else 0) := by
  rw [pay3_eq, pay34_apply, pay33_apply, mask_read v5 v7 h5 h7 b c]
  simp only [hcell]
  rfl

include h5 h7 hcell hg0 hg1 hg2 in
/-- The stored block is the block found plus the weighted total. -/
theorem body_val (v159 : Vec Ideal S1x8x128 .f32) (y : S1x8x128.Idx) :
    bodyVal v3 v5 v7 v19 v21 v23 v159 y
      = v159 y + (((wFive * (∑ b : Fin 128, ∑ l : Fin 16, coordTerm (fun d => v3 (ix3 b (cell b l) d)) (g b l))
            + ∑ b : Fin 128, ∑ l : Fin 16, confTerm (fun d => v3 (ix3 b (cell b l) d)) (g b l))
          + wHalf * (∑ b : Fin 128, ∑ l : Fin 16, otherTerm (fun d => v3 (ix3 b (cell b l) d)) (g b l)))
        + wHalf * (∑ b : Fin 128, ∑ c : Fin 64,
            emptyTerm (v3 (ix3 b c 3)) (v3 (ix3 b c 7)) (if ∃ l : Fin 16, cell b l = c then 1 else 0))) := by
  unfold bodyVal
  rw [pay1_apply, pay29_apply, pay30_apply, pay31_apply]
  simp only [coord_at v3 v5 v7 v19 v21 v23 h5 h7 cell hcell g hg0 hg1 hg2,
    conf_at v3 v5 v7 v19 v21 v23 h5 h7 cell hcell g hg0 hg1 hg2,
    other_at v3 v5 v7 v19 v21 v23 h5 h7 cell hcell g hg0 hg1 hg2,
    empty_at v3 v5 v7 h5 h7 cell hcell]

end Body

/-! ## The run's loads, and the two cases -/

theorem hz : (![0, 0, 0] : Fin 3 → Nat) = fun _ => 0 := funext fun a => by fin_cases a <;> rfl

section Loads
variable (x1 : Vec Ideal S128x16x2 .i32) (x2 : Vec Ideal S128x16x3 .f32) (b : Fin 128) (l : Fin 16)

/-- The slices of the labels' cells and boxes, read at `(b, l, 0)`: the array at `(b, l, k)`, `k` the slice's offset. -/
theorem ld_x1_0 : View.ld x1 (Rect.unit (s := S128x16x2) ![0, 0, 0] S128x16x1.size inb_S128x16x2_S128x16x1_0_0_0) (ix3 b l 0) = x1 (ix3 b l 0) :=
  congrArg x1 (funext fun a => Fin.ext (by
    match a with
    | ⟨0, _⟩ => show 0 + 1 * b.val = b.val; omega
    | ⟨1, _⟩ => show 0 + 1 * l.val = l.val; omega
    | ⟨2, _⟩ => rfl))
theorem ld_x1_1 : View.ld x1 (Rect.unit (s := S128x16x2) ![0, 0, 1] S128x16x1.size inb_S128x16x2_S128x16x1_0_0_1) (ix3 b l 0) = x1 (ix3 b l 1) :=
  congrArg x1 (funext fun a => Fin.ext (by
    match a with
    | ⟨0, _⟩ => show 0 + 1 * b.val = b.val; omega
    | ⟨1, _⟩ => show 0 + 1 * l.val = l.val; omega
    | ⟨2, _⟩ => rfl))
theorem ld_x2_0 : View.ld x2 (Rect.unit (s := S128x16x3) ![0, 0, 0] S128x16x1.size inb_S128x16x3_S128x16x1_0_0_0) (ix3 b l 0) = x2 (ix3 b l 0) :=
  congrArg x2 (funext fun a => Fin.ext (by
    match a with
    | ⟨0, _⟩ => show 0 + 1 * b.val = b.val; omega
    | ⟨1, _⟩ => show 0 + 1 * l.val = l.val; omega
    | ⟨2, _⟩ => rfl))
theorem ld_x2_1 : View.ld x2 (Rect.unit (s := S128x16x3) ![0, 0, 1] S128x16x1.size inb_S128x16x3_S128x16x1_0_0_1) (ix3 b l 0) = x2 (ix3 b l 1) :=
  congrArg x2 (funext fun a => Fin.ext (by
    match a with
    | ⟨0, _⟩ => show 0 + 1 * b.val = b.val; omega
    | ⟨1, _⟩ => show 0 + 1 * l.val = l.val; omega
    | ⟨2, _⟩ => rfl))
theorem ld_x2_2 : View.ld x2 (Rect.unit (s := S128x16x3) ![0, 0, 2] S128x16x1.size inb_S128x16x3_S128x16x1_0_0_2) (ix3 b l 0) = x2 (ix3 b l 2) :=
  congrArg x2 (funext fun a => Fin.ext (by
    match a with
    | ⟨0, _⟩ => show 0 + 1 * b.val = b.val; omega
    | ⟨1, _⟩ => show 0 + 1 * l.val = l.val; omega
    | ⟨2, _⟩ => rfl))

end Loads

/-- What the body stores over a block `xo` found, from the three argument blocks. -/
theorem stored_val (x0 : Vec Ideal S128x64x8 .f32) (x1 : Vec Ideal S128x16x2 .i32) (x2 : Vec Ideal S128x16x3 .f32)
    (xo : Vec Ideal S1x8x128 .f32) (hx1 : ∀ y, (x1 y).toNat < 8) :
    bodyVal x0 (View.ld x1 (Rect.unit (s := S128x16x2) ![0, 0, 0] S128x16x1.size inb_S128x16x2_S128x16x1_0_0_0))
        (View.ld x1 (Rect.unit (s := S128x16x2) ![0, 0, 1] S128x16x1.size inb_S128x16x2_S128x16x1_0_0_1))
        (View.ld x2 (Rect.unit (s := S128x16x3) ![0, 0, 0] S128x16x1.size inb_S128x16x3_S128x16x1_0_0_0))
        (View.ld x2 (Rect.unit (s := S128x16x3) ![0, 0, 1] S128x16x1.size inb_S128x16x3_S128x16x1_0_0_1))
        (View.ld x2 (Rect.unit (s := S128x16x3) ![0, 0, 2] S128x16x1.size inb_S128x16x3_S128x16x1_0_0_2)) xo
      = fun y => xo y + blkTotal x0 x1 x2 := by
  have h5' : ∀ y, (View.ld x1 (Rect.unit (s := S128x16x2) ![0, 0, 0] S128x16x1.size inb_S128x16x2_S128x16x1_0_0_0) y).toNat < 8 :=
    fun y => hx1 _
  have h7' : ∀ y, (View.ld x1 (Rect.unit (s := S128x16x2) ![0, 0, 1] S128x16x1.size inb_S128x16x2_S128x16x1_0_0_1) y).toNat < 8 :=
    fun y => hx1 _
  have hcell : ∀ b l, cellV (View.ld x1 (Rect.unit (s := S128x16x2) ![0, 0, 0] S128x16x1.size inb_S128x16x2_S128x16x1_0_0_0))
      (View.ld x1 (Rect.unit (s := S128x16x2) ![0, 0, 1] S128x16x1.size inb_S128x16x2_S128x16x1_0_0_1)) b l = cellB x1 b l := by
    intro b l
    apply Fin.ext
    unfold cellV cellB
    dsimp only
    rw [ld_x1_0, ld_x1_1]
  funext y
  have h := body_val x0 _ _ _ _ _ h5' h7' (cellB x1) hcell (gB x2) (ld_x2_0 x2) (ld_x2_1 x2) (ld_x2_2 x2) xo y
  have hm : ∀ b c, markB x1 b c = (if ∃ l : Fin 16, cellB x1 b l = c then 1 else 0) := fun b c => by
    unfold markB
    split_ifs <;> rfl
  unfold blkTotal pbB
  simp only [hm]
  exact h

/-- A point that is not the first of its half: the block found, plus the total. -/
theorem out_B_val (c : Dev nD) (i : grid0.Coords) (a2 : Memref sig .tc .vmem S128x64x8 .f32) (h2 : a2.IsWhole)
    (a3 : Memref sig .tc .vmem S128x16x2 .i32) (h3 : a3.IsWhole) (a4 : Memref sig .tc .vmem S128x16x3 .f32) (h4 : a4.IsWhole)
    (a5 : Memref sig .tc .vmem S1x8x128 .f32) (h5 : a5.IsWhole) (hc : ¬cond0_0 i)
    (x0 : Vec Ideal S128x64x8 .f32) (x1 : Vec Ideal S128x16x2 .i32) (x2 : Vec Ideal S128x16x3 .f32)
    (xo3 : Vec Ideal S1x8x128 .f32) (hx1 : ∀ y, (x1 y).toNat < 8) :
    out0_B_3 (F := Ideal) c i a2 h2 a3 h3 a4 h4 a5 h5 hc x0 x1 x2 xo3 = fun y => xo3 y + blkTotal x0 x1 x2 := by
  unfold out0_B_3
  rw [View.read_writes_eq_canon _ _ _ (cover0_B_3 c i a2 h2 a3 h3 a4 h4 a5 h5 hc x0 x1 x2 xo3)]
  unfold kernelRun0_B
  dsimp only
  sl_unfold_words
  rw [View.canon_unit_zero hz]
  simp only [View.readAt_eq_ld, h2.read_unread, h3.read_unread, h4.read_unread, h5.read_unread,
    View.ld_unit_zero (S := S128x64x8) hz, View.ld_unit_zero (S := S1x8x128) hz]
  exact stored_val x0 x1 x2 xo3 hx1

/-- The zero block the first point of a half stores. -/
theorem pay2_apply (y : S1x8x128.Idx) : k0_pay2 (F := Ideal) y = 0 :=
  (rfl : k0_pay2 (F := Ideal) y = Ideal.ofBits .f32 0x00000000#32).trans Ideal.ofBits_zero_f32

/-- The first point of a half: zero, plus the total. -/
theorem out_A_val (c : Dev nD) (i : grid0.Coords) (a2 : Memref sig .tc .vmem S128x64x8 .f32) (h2 : a2.IsWhole)
    (a3 : Memref sig .tc .vmem S128x16x2 .i32) (h3 : a3.IsWhole) (a4 : Memref sig .tc .vmem S128x16x3 .f32) (h4 : a4.IsWhole)
    (a5 : Memref sig .tc .vmem S1x8x128 .f32) (h5 : a5.IsWhole) (hc : cond0_0 i)
    (x0 : Vec Ideal S128x64x8 .f32) (x1 : Vec Ideal S128x16x2 .i32) (x2 : Vec Ideal S128x16x3 .f32)
    (hx1 : ∀ y, (x1 y).toNat < 8) :
    out0_A_3 (F := Ideal) c i a2 h2 a3 h3 a4 h4 a5 h5 hc x0 x1 x2 = fun _ => 0 + blkTotal x0 x1 x2 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x8x128) hz, View.readCov_unit_zero (S := S1x8x128) _ hz]
  simp only [View.readAt_eq_ld, h2.read_unread, h3.read_unread, h4.read_unread,
    View.ld_unit_zero (S := S128x64x8) hz, View.ld_unit_zero (S := S1x8x128) hz]
  refine (stored_val x0 x1 x2 (k0_pay2 (F := Ideal)) hx1).trans (funext fun y => ?_)
  rw [pay2_apply]

end Cert.KernelIdeal.BodyValue

end
-- ==== Proof.KernelValue.lean ====
/-
  What the kernel's program computes: its scalar result is `kerTotal` of its arguments.
  The grid has 512 points; point `t` reads block `t` of the three arrays (128 samples; the first array through the
  host's regrouping of the 8 × 8 cells into 64) and adds the block's weighted total into the output block of its half
  (`t / 256`), which is zeroed at the first point of the half and written back after the last. So after point `t` every
  entry of the staged output block is the sum of the block totals of the half so far (induction on the point), the
  result array `[2, 8, 128]` ends with half `i`'s total in every entry of row `i`, and the host's tail adds entry
  `(i, 0, 0)` of the two halves to zero and divides by 65536.
-/
import proofs.«415334_j7971459302100_4_alg».proof.Proof.Spec
import proofs.«415334_j7971459302100_4_alg».proof.Proof.KernelBody
import proofs.«415334_j7971459302100_4_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx Cert.LossSpec Cert.KernelIdeal.BodyValue

variable (m : (ℓ : Loc nD τ sig) → Buf (Elt Ideal) ℓ) (ρ : Dev nD → PrngReg)

/-- The three argument arrays as launched. -/
abbrev aP (c : Dev nD) : SP.Idx → EReal := m ((c.tc : Thread nD τ).loc main_arg0)
abbrev aRC (c : Dev nD) : SRC.Idx → BitVec 32 := m ((c.tc : Thread nD τ).loc main_arg1)
abbrev aBX (c : Dev nD) : SBX.Idx → EReal := m ((c.tc : Thread nD τ).loc main_arg2)

/-! ## Which block a point reads and writes -/

/-- The three inputs' block index at point `t` is `(t, 0, 0)`; the output's is `(t / 256, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val / 256 ∧ win0_3.index t (1 : Fin 3) = 0 ∧ win0_3.index t (2 : Fin 3) = 0 :=
  (by decide +kernel : ∀ t : Fin grid0.N, _)

theorem N512 : cfg0.N = 512 := N_0

/-! ## The blocks are the blocks of the arguments -/

/-- The host regroups the cells before the launch: the first window's array is the first argument read by cell number. -/
theorem V_cells (c : Dev nD) :
    (V m c main_v0 : S65536x64x8.Idx → EReal)
      = shapeCast S65536x64x8 (m ((c.tc : Thread nD τ).loc main_arg0)) Facts₀.shapeCasts_S65536x8x8x8_S65536x64x8 := by
  show StableHlo.after hostOps0 (fun b => m (c, b)) (Proc.devRef .tc main_v0) = _
  after_results
  rfl

theorem blk0_eq (c : Dev nD) (t : Fin cfg0.N) :
    (iblk m c 0 t : Vec Ideal S128x64x8 .f32) = blkP (aP m c) t.val := by
  have ht : t.val < 512 := lt_of_lt_of_eq t.isLt N512
  have hi := idx_facts t
  funext y
  unfold iblk
  rw [View.read_apply]
  show V m c main_v0 (((cfg0.win 0).blk t).view.emb y) = _
  rw [V_cells]
  have h0 : (y 0).val < 128 := (y 0).isLt
  have h1 : (y 1).val < 64 := (y 1).isLt
  have h2 : (y 2).val < 8 := (y 2).isLt
  refine (shapeCast_apply _ _ _ (ix4 (rowOf t.val (y 0)) ⟨(y 1).val / 8, by omega⟩ ⟨(y 1).val % 8, by omega⟩ (y 2)) ?_).trans rfl
  rw [Shape.rowMajor_val_four, Shape.rowMajor_val_three]
  show ((((128 * t.val + (y 0).val) % 65536) * 8 + (y 1).val / 8) * 8 + (y 1).val % 8) * 8 + (y 2).val
    = ((win0_0.index t 0 * 128 + 1 * (y 0).val) * 64 + (win0_0.index t 1 * 64 + 1 * (y 1).val)) * 8
        + (win0_0.index t 2 * 8 + 1 * (y 2).val)
  rw [hi.1, hi.2.1, hi.2.2.1]
  omega

theorem blk1_eq (c : Dev nD) (t : Fin cfg0.N) :
    (iblk m c 1 t : Vec Ideal S128x16x2 .i32) = blkRC (aRC m c) t.val := by
  have ht : t.val < 512 := lt_of_lt_of_eq t.isLt N512
  have hi := idx_facts t
  funext y
  unfold iblk
  rw [View.read_apply]
  show V m c main_arg1 (((cfg0.win 1).blk t).view.emb y) = _
  rw [V_main_arg1]
  have h0 : (y 0).val < 128 := (y 0).isLt
  refine congrArg (m ((c.tc : Thread nD τ).loc main_arg1)) ?_
  funext a
  apply Fin.ext
  match a with
  | ⟨0, _⟩ =>
    show win0_1.index t 0 * 128 + 1 * (y 0).val = (128 * t.val + (y 0).val) % 65536
    rw [hi.2.2.2.1]; omega
  | ⟨1, _⟩ =>
    show win0_1.index t 1 * 16 + 1 * (y 1).val = (y 1).val
    rw [hi.2.2.2.2.1]; omega
  | ⟨2, _⟩ =>
    show win0_1.index t 2 * 2 + 1 * (y 2).val = (y 2).val
    rw [hi.2.2.2.2.2.1]; omega

theorem blk2_eq (c : Dev nD) (t : Fin cfg0.N) :
    (iblk m c 2 t : Vec Ideal S128x16x3 .f32) = blkBX (aBX m c) t.val := by
  have ht : t.val < 512 := lt_of_lt_of_eq t.isLt N512
  have hi := idx_facts t
  funext y
  unfold iblk
  rw [View.read_apply]
  show V m c main_arg2 (((cfg0.win 2).blk t).view.emb y) = _
  rw [V_main_arg2]
  have h0 : (y 0).val < 128 := (y 0).isLt
  refine congrArg (m ((c.tc : Thread nD τ).loc main_arg2)) ?_
  funext a
  apply Fin.ext
  match a with
  | ⟨0, _⟩ =>
    show win0_2.index t 0 * 128 + 1 * (y 0).val = (128 * t.val + (y 0).val) % 65536
    rw [hi.2.2.2.2.2.2.1]; omega
  | ⟨1, _⟩ =>
    show win0_2.index t 1 * 16 + 1 * (y 1).val = (y 1).val
    rw [hi.2.2.2.2.2.2.2.1]; omega
  | ⟨2, _⟩ =>
    show win0_2.index t 2 * 3 + 1 * (y 2).val = (y 2).val
    rw [hi.2.2.2.2.2.2.2.2.1]; omega

/-! ## The running sum -/

/-- The sum of the block totals of point `n`'s half up to and including point `n`. -/
def partialSum (c : Dev nD) (n : ℕ) : EReal :=
  ∑ j ∈ Finset.range (n % 256 + 1), blockTotal (aP m c) (aRC m c) (aBX m c) (n - n % 256 + j)

/-- After point `n` every entry of the staged output block is the half's running sum. -/
theorem outsAt_eq (c : Dev nD) (hrc : ∀ i, (aRC m c i).toNat < 8) :
    ∀ (n : ℕ) (h : n < cfg0.N), outsAt0 m c n h = fun _ => partialSum m c n := by
  intro n
  induction n with
  | zero =>
    intro h
    have hx1 : ∀ y, ((iblk m c 1 ⟨0, h⟩ : Vec Ideal S128x16x2 .i32) y).toNat < 8 := by
      intro y; rw [blk1_eq]; exact hrc _
    rw [outsAt0_A m c ⟨0, h⟩ rfl, out_A_val _ _ _ _ _ _ _ _ _ _ _ _ _ _ hx1, blk0_eq, blk1_eq, blk2_eq]
    funext _
    show 0 + blockTotal (aP m c) (aRC m c) (aBX m c) 0 = partialSum m c 0
    unfold partialSum
    rw [zero_add]
    simp
  | succ n ih =>
    intro h
    have hN : n + 1 < 512 := lt_of_lt_of_eq h N512
    have hx1 : ∀ y, ((iblk m c 1 ⟨n + 1, h⟩ : Vec Ideal S128x16x2 .i32) y).toNat < 8 := by
      intro y; rw [blk1_eq]; exact hrc _
    by_cases h0 : (n + 1) % 256 = 0
    · rw [outsAt0_A m c ⟨n + 1, h⟩ h0, out_A_val _ _ _ _ _ _ _ _ _ _ _ _ _ _ hx1, blk0_eq, blk1_eq, blk2_eq]
      funext _
      show 0 + blockTotal (aP m c) (aRC m c) (aBX m c) (n + 1) = partialSum m c (n + 1)
      unfold partialSum
      rw [zero_add, h0]
      simp
    · rw [outsAt0_B m c ⟨n + 1, h⟩ h0, out_B_val _ _ _ _ _ _ _ _ _ _ _ _ _ _ _ hx1, blk0_eq, blk1_eq, blk2_eq]
      funext _
      show outsAt0 m c (n + 1 - 1) _ _ + blockTotal (aP m c) (aRC m c) (aBX m c) (n + 1) = partialSum m c (n + 1)
      have e : outsAt0 m c (n + 1 - 1) (Nat.lt_of_le_of_lt (Nat.sub_le _ _) h) = fun _ => partialSum m c n :=
        ih (Nat.lt_of_succ_lt h)
      rw [e]
      unfold partialSum
      have h1 : (n + 1) % 256 = n % 256 + 1 := by omega
      have h2 : n + 1 - (n % 256 + 1) = n - n % 256 := by omega
      have h3 : n - n % 256 + (n % 256 + 1) = n + 1 := by omega
      rw [h1, h2, Finset.sum_range_succ _ (n % 256 + 1), h3]

/-! ## The result array -/

/-- Half `i`'s total in every entry of row `i`. -/
def halves (c : Dev nD) : S2x8x128.Idx → EReal := fun i => halfTotal (aP m c) (aRC m c) (aBX m c) (i 0).val

/-- At the last point of a half the running sum is the half's total. -/
theorem partialSum_last (c : Dev nD) (n : ℕ) (h : n % 256 = 255) :
    partialSum m c n = halfTotal (aP m c) (aRC m c) (aBX m c) (n / 256) := by
  unfold partialSum halfTotal
  have e : n - 255 = 256 * (n / 256) := by omega
  rw [h, e]

/-- What a writing-back point writes is its block of `halves`. -/
theorem flushed_eq (c : Dev nD) (hrc : ∀ i, (aRC m c i).toNat < 8) (t : Fin cfg0.N) (hf : (cfg0.win 3).flush t = true) :
    (dats m 0 c).flushed 3 t = ((cfg0.win 3).blk t).view.read (Elt Ideal) (halves m c) := by
  have ht : t.val < 512 := lt_of_lt_of_eq t.isLt N512
  have h255 : t.val % 256 = 255 := (flush0_3 t).mp hf
  have hi := idx_facts t
  show (cfg0.win 3).cut (grid0.coords t) ((dats m 0 c).after 3 t) = _
  rw [after0_3, outsAt_eq m c hrc]
  funext y
  rw [View.read_apply]
  show partialSum m c t.val = halves m c (((cfg0.win 3).blk t).view.emb y)
  rw [partialSum_last m c t.val h255]
  unfold halves
  refine congrArg (halfTotal (aP m c) (aRC m c) (aBX m c)) ?_
  show t.val / 256 = win0_3.index t 0 * 1 + 1 * (y 0).val
  have h0 : (y 0).val < 1 := (y 0).isLt
  rw [hi.2.2.2.2.2.2.2.2.2.1]
  omega

/-- The output window's block has the extents `(1, 8, 128)` at every point (no clipped block). -/
theorem out_sizes : ∀ t : Fin cfg0.N,
    win0_3.xsize (grid0.coords t) (0 : Fin 3) = 1 ∧ win0_3.xsize (grid0.coords t) (1 : Fin 3) = 8
    ∧ win0_3.xsize (grid0.coords t) (2 : Fin 3) = 128 :=
  (by decide +kernel : ∀ t : Fin grid0.N, _)

/-- The two writing-back points cover the result array, so it ends at `halves`. -/
theorem final_out (c : Dev nD) (hrc : ∀ i, (aRC m c i).toNat < 8) : (dats m 0 c).arrAt 3 cfg0.N = halves m c :=
  (dats m 0 c).arrAt_eq_of_cover 3 (halves m c) (flushed_eq m c hrc) fun i => by
    have h0 : (i 0 : Nat) < 2 := (i 0).isLt
    have h1 : (i 1 : Nat) < 8 := (i 1).isLt
    have h2 : (i 2 : Nat) < 128 := (i 2).isLt
    have htN : 256 * (i 0 : Nat) + 255 < cfg0.N := by rw [N512]; omega
    have hi := idx_facts ⟨256 * (i 0 : Nat) + 255, htN⟩
    have hs := out_sizes ⟨256 * (i 0 : Nat) + 255, htN⟩
    refine ⟨⟨256 * (i 0 : Nat) + 255, htN⟩, (flush0_3 _).mpr (by show (256 * (i 0 : Nat) + 255) % 256 = 255; omega), ?_⟩
    show i ∈ ((View.whole main_v1).slice (win0_3.rect ⟨256 * (i 0 : Nat) + 255, htN⟩)).set
    rw [View.set_slice_whole, Rect.mem_set_unit]
    intro a
    match a with
    | ⟨0, _⟩ =>
      show win0_3.index ⟨256 * (i 0 : Nat) + 255, htN⟩ 0 * win0_3.size 0 ≤ (i 0 : Nat)
        ∧ (i 0 : Nat) < win0_3.index ⟨256 * (i 0 : Nat) + 255, htN⟩ 0 * win0_3.size 0 + win0_3.xsize (grid0.coords ⟨256 * (i 0 : Nat) + 255, htN⟩) 0
      rw [hi.2.2.2.2.2.2.2.2.2.1, hs.1, show win0_3.size 0 = 1 from rfl]
      show (256 * (i 0 : Nat) + 255) / 256 * 1 ≤ (i 0 : Nat) ∧ (i 0 : Nat) < (256 * (i 0 : Nat) + 255) / 256 * 1 + 1
      omega
    | ⟨1, _⟩ =>
      show win0_3.index ⟨256 * (i 0 : Nat) + 255, htN⟩ 1 * win0_3.size 1 ≤ (i 1 : Nat)
        ∧ (i 1 : Nat) < win0_3.index ⟨256 * (i 0 : Nat) + 255, htN⟩ 1 * win0_3.size 1 + win0_3.xsize (grid0.coords ⟨256 * (i 0 : Nat) + 255, htN⟩) 1
      rw [hi.2.2.2.2.2.2.2.2.2.2.1, hs.2.1]
      omega
    | ⟨2, _⟩ =>
      show win0_3.index ⟨256 * (i 0 : Nat) + 255, htN⟩ 2 * win0_3.size 2 ≤ (i 2 : Nat)
        ∧ (i 2 : Nat) < win0_3.index ⟨256 * (i 0 : Nat) + 255, htN⟩ 2 * win0_3.size 2 + win0_3.xsize (grid0.coords ⟨256 * (i 0 : Nat) + 255, htN⟩) 2
      rw [hi.2.2.2.2.2.2.2.2.2.2.2, hs.2.2]
      omega

/-! ## The host's tail and the run -/

/-- Entry `(k, 0, 0)` of the result array, through the host's slice and regrouping, is half `k`'s total. -/
theorem half_read (c : Dev nD) (k : Fin 2) :
    shapeCast S2 (extractStridedSlice S2x1x1 ![0, 0, 0] (halves m c) Facts₀.slices_S2x8x128_S2x1x1_0_0_0)
        Facts₀.shapeCasts_S2x1x1_S2 (ix1 k)
      = halfTotal (aP m c) (aRC m c) (aBX m c) k.val := by
  refine (shapeCast_apply _ _ _ (ix3 k (0 : Fin 1) (0 : Fin 1)) ?_).trans ?_
  · rw [Shape.rowMajor_val_three, Shape.rowMajor_val_one]
    show (k.val * 1 + 0) * 1 + 0 = k.val
    omega
  · unfold extractStridedSlice halves
    show halfTotal _ _ _ (0 + k.val) = _
    rw [Nat.zero_add]

/-- The two entries of a length-2 array. -/
def pairIdx : Fin 2 ≃ S2.Idx where
  toFun k := ix1 k
  invFun i := i 0
  left_inv _ := rfl
  right_inv i := (eq_ix1 i).symm

/-- The scalar the host computes from the result array: the two halves added to zero, divided by the batch size. -/
theorem tail_eq (c : Dev nD) (hrc : ∀ i, (aRC m c i).toNat < 8) :
    Pipeline.afterTail₀ cfgs (dats m) 0 (V0 m) [hostOps1] c main_v5
      = fun _ => kerTotal (aP m c) (aRC m c) (aBX m c) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.tc.devRef main_v1)
      = halves m c from (Pipeline.withArrays_arr spec0 launch0.win.arr_inj c _ _ 3).trans (final_out m c hrc)]
  funext j
  show Ideal.div (Ideal.hostReduceAdd Facts₀.reducesTo_S2_S_d0
      (fun i => shapeCast S2 (extractStridedSlice S2x1x1 ![0, 0, 0] (halves m c) Facts₀.slices_S2x8x128_S2x1x1_0_0_0)
        Facts₀.shapeCasts_S2x1x1_S2 i) (Ideal.ofBits .f32 0x00000000#32) j) (Ideal.ofBits .f32 0x47800000#32) = _
  unfold kerTotal
  refine congrArg (fun t => Ideal.div t wBatch) ?_
  rw [Ideal.hostReduceAdd_total Facts₀.reducesTo_S2_S_d0 (fun b => b.elim0) _ _ j, Ideal.ofBits_zero_f32,
    ← Equiv.sum_comp pairIdx, Fin.sum_univ_two]
  show (0 : EReal) + (shapeCast S2 (extractStridedSlice S2x1x1 ![0, 0, 0] (halves m c) Facts₀.slices_S2x8x128_S2x1x1_0_0_0)
        Facts₀.shapeCasts_S2x1x1_S2 (ix1 (0 : Fin 2))
      + shapeCast S2 (extractStridedSlice S2x1x1 ![0, 0, 0] (halves m c) Facts₀.slices_S2x8x128_S2x1x1_0_0_0)
        Facts₀.shapeCasts_S2x1x1_S2 (ix1 (1 : Fin 2))) = _
  rw [half_read, half_read]
  rfl

/-- Every weakly fair execution of the kernel's program from memory `m` terminates with its scalar result at `kerTotal` of the
    arguments, which end unchanged. -/
theorem run (hrc : ∀ c i, (aRC m c i).toNat < 8) :
    θ_run defs (onTc (τ := τ) (main (F := Ideal))) ⟨m, fun _ => 0, ρ⟩ fun r => ∀ c : Dev nD,
      r.2.mem ((c.tc : Thread nD τ).loc main_v5) = (fun _ => kerTotal (aP m c) (aRC m c) (aBX m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c (hrc c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KerValue

end
-- ==== Proof.RefIndexing.lean ====
/-
  Three host operations of the reference read at an index.
  The gather: each result element `(b, l, d)` is the operand at the three-component start index the index array holds at
  `(b, l, ·)`, read as signed integers and clamped into the operand, with `d` on the last axis; when the three components
  are already inside the operand nothing is clamped.
  The scatter of one constant into a constant array: an element ends at the scattered constant exactly when some update's
  index vector, read signed, is that element's position (updates that land outside are dropped), whatever the order of the
  updates, since all of them write the same value.
  The concatenation of three arrays with a last axis of length one, along that axis: component `k` is the `k`-th array.
-/
import proofs.«415334_j7971459302100_4_alg».proof.ReferenceIdeal
import proofs.«415334_j7971459302100_4_alg».proof.Proof.Gen.ReferenceIdeal
import Idealize.ShloMosaic.Lib.ValueIdx

noncomputable section

namespace Cert.ReferenceIdeal.RefIndexing

open Cert.ReferenceIdeal Idealize.ShloMosaic Idealize.ShloMosaic.ValueIdx

/-- The start-indices position a result element `(b, l, d)` reads component `c` of its start index at: `(b, l, c)`. -/
private theorem gather_siIdx (b : Fin 65536) (l : Fin 16) (d : Fin 8)
    (c : Fin gather_S65536x8x8x8_S65536x16x3_S65536x16x8_2_012_n_n_012_2_1118.startIndexMap.length) :
    gather_S65536x8x8x8_S65536x16x3_S65536x16x8_2_012_n_n_012_2_1118.siIdx (ix3 b l d) c = ix3 b l ⟨c.val, c.isLt⟩ := by
  funext a; refine Fin.ext ?_
  match a with
  | ⟨0, _⟩ => rfl
  | ⟨1, _⟩ => rfl
  | ⟨2, _⟩ => rfl

/-- On a collapsed operand axis `a` that the start index map names in position `k`, the operand coordinate is component
    `k` of the start index, clamped to `n` = the axis's extent less the slice size: the component itself when it is a
    natural number at most `n`. -/
private theorem gather_coord (idx : IVec S65536x16x3 32) (b : Fin 65536) (l : Fin 16) (d : Fin 8)
    (a : Fin 4) (k : Fin 3) (n v : Nat)
    (hm : a ∈ gather_S65536x8x8x8_S65536x16x3_S65536x16x8_2_012_n_n_012_2_1118.startIndexMap)
    (hk : List.idxOf a gather_S65536x8x8x8_S65536x16x3_S65536x16x8_2_012_n_n_012_2_1118.startIndexMap = k.val)
    (hcol : a ∈ gather_S65536x8x8x8_S65536x16x3_S65536x16x8_2_012_n_n_012_2_1118.collapsedSliceDims)
    (hn : S65536x8x8x8.size a - gather_S65536x8x8x8_S65536x16x3_S65536x16x8_2_012_n_n_012_2_1118.sliceSizes a = n)
    (hv : (idx (ix3 b l k)).toInt = (v : Int)) (hvn : v ≤ n) :
    (gather_S65536x8x8x8_S65536x16x3_S65536x16x8_2_012_n_n_012_2_1118.operandIdx (ix3 b l d) idx a).val = v := by
  show gather_S65536x8x8x8_S65536x16x3_S65536x16x8_2_012_n_n_012_2_1118.start (ix3 b l d) idx a
    + gather_S65536x8x8x8_S65536x16x3_S65536x16x8_2_012_n_n_012_2_1118.batchCoord (ix3 b l d) a
    + gather_S65536x8x8x8_S65536x16x3_S65536x16x8_2_012_n_n_012_2_1118.offCoord (ix3 b l d) a = v
  rw [GatherDims.batchCoord_eq_zero _ _ _ List.not_mem_nil,
    GatherDims.offCoord_eq_zero _ _ _ (fun h => ((GatherDims.mem_sKept _ _).mp h).1 hcol)]
  unfold GatherDims.start
  rw [dif_pos hm, gather_siIdx, hn]
  have e : (⟨List.idxOf a gather_S65536x8x8x8_S65536x16x3_S65536x16x8_2_012_n_n_012_2_1118.startIndexMap,
      List.idxOf_lt_length_iff.2 hm⟩ : Fin gather_S65536x8x8x8_S65536x16x3_S65536x16x8_2_012_n_n_012_2_1118.startIndexMap.length)
      = ⟨k.val, k.isLt⟩ := Fin.ext hk
  rw [e]
  show min (idx (ix3 b l k)).toInt.toNat n + 0 + 0 = v
  rw [hv, Int.toNat_natCast]; omega

/-- The gather at `(b, l, d)` when the start index at `(b, l, ·)` is `(p, r, c)`, inside the operand. -/
theorem gather_read {α : Type} (x : S65536x8x8x8.Idx → α) (idx : IVec S65536x16x3 32) (b : Fin 65536) (l : Fin 16) (d : Fin 8)
    (p : Fin 65536) (r c : Fin 8)
    (h0 : (idx (ix3 b l 0)).toInt = p.val) (h1 : (idx (ix3 b l 1)).toInt = r.val) (h2 : (idx (ix3 b l 2)).toInt = c.val) :
    Host.gather gather_S65536x8x8x8_S65536x16x3_S65536x16x8_2_012_n_n_012_2_1118 x idx (ix3 b l d) = x (ix4 p r c d) := by
  unfold Host.gather
  congr 1
  funext a
  refine Fin.ext ?_
  have hp := p.isLt
  have hr := r.isLt
  have hc := c.isLt
  match a with
  | ⟨0, _⟩ =>
    exact gather_coord idx b l d 0 0 65535 p.val (by decide) (by decide) (by decide) rfl h0 (by omega)
  | ⟨1, _⟩ =>
    exact gather_coord idx b l d 1 1 7 r.val (by decide) (by decide) (by decide) rfl h1 (by omega)
  | ⟨2, _⟩ =>
    exact gather_coord idx b l d 2 2 7 c.val (by decide) (by decide) (by decide) rfl h2 (by omega)
  | ⟨3, _⟩ =>
    show gather_S65536x8x8x8_S65536x16x3_S65536x16x8_2_012_n_n_012_2_1118.start (ix3 b l d) idx 3
      + gather_S65536x8x8x8_S65536x16x3_S65536x16x8_2_012_n_n_012_2_1118.batchCoord (ix3 b l d) 3
      + gather_S65536x8x8x8_S65536x16x3_S65536x16x8_2_012_n_n_012_2_1118.offCoord (ix3 b l d) 3 = d.val
    rw [GatherDims.batchCoord_eq_zero _ _ _ List.not_mem_nil]
    unfold GatherDims.start
    rw [dif_neg (by decide)]
    show 0 + 0 + d.val = d.val
    omega

section Fold
variable {α : Type} {s si u : Shape} {w : Nat}

/-- A run of updates none of which lands at `i` leaves the element at `i` as it was. -/
private theorem scatter_fold_miss (d : ScatterDims s si u) (idx : IVec si w) (o : α) (i : s.Idx)
    (L : List (Fin u.numel)) (r : s.Idx → α)
    (h : ∀ n ∈ L, d.resultIdx? (u.rowMajor.symm n) idx ≠ some i) :
    (L.foldl (fun r n =>
      match d.resultIdx? (u.rowMajor.symm n) idx with
      | some i => fun i' => if i' = i then o else r i'
      | none => r) r) i = r i := by
  induction L generalizing r with
  | nil => rfl
  | cons n L ih =>
    rw [List.foldl_cons, ih _ (fun m hm => h m (List.mem_cons_of_mem _ hm))]
    have hn := h n List.mem_cons_self
    cases hq : d.resultIdx? (u.rowMajor.symm n) idx with
    | none => rfl
    | some i₀ =>
      have hne : i ≠ i₀ := fun e => hn (by rw [hq, e])
      show (if i = i₀ then o else r i) = r i
      rw [if_neg hne]

/-- A run of updates of the one value `o`, one of which lands at `i`, leaves `o` at `i`. -/
private theorem scatter_fold_hit (d : ScatterDims s si u) (idx : IVec si w) (o : α) (i : s.Idx)
    (L : List (Fin u.numel)) (r : s.Idx → α)
    (h : ∃ n ∈ L, d.resultIdx? (u.rowMajor.symm n) idx = some i) :
    (L.foldl (fun r n =>
      match d.resultIdx? (u.rowMajor.symm n) idx with
      | some i => fun i' => if i' = i then o else r i'
      | none => r) r) i = o := by
  induction L generalizing r with
  | nil => obtain ⟨n, hn, _⟩ := h; cases hn
  | cons n L ih =>
    rw [List.foldl_cons]
    by_cases hL : ∃ m ∈ L, d.resultIdx? (u.rowMajor.symm m) idx = some i
    · exact ih _ hL
    · have hmiss : ∀ m ∈ L, d.resultIdx? (u.rowMajor.symm m) idx ≠ some i := fun m hm e => hL ⟨m, hm, e⟩
      rw [scatter_fold_miss d idx o i L _ hmiss]
      obtain ⟨m, hm, e⟩ := h
      rcases List.mem_cons.1 hm with rfl | hm'
      · rw [e]
        show (if i = i then o else r i) = o
        rw [if_pos rfl]
      · exact absurd ⟨m, hm', e⟩ hL

/-- The scatter of the constant `o` into the constant `z`, any dimension numbers: `o` where some update lands. -/
private theorem scatter_const_of_hit (d : ScatterDims s si u) (idx : IVec si w) (z o : α) (i : s.Idx)
    (h : ∃ j : u.Idx, d.resultIdx? j idx = some i) :
    Host.scatter d (fun _ u => u) (fun _ => z) idx (fun _ => o) i = o := by
  obtain ⟨j, hj⟩ := h
  unfold Host.scatter
  exact scatter_fold_hit d idx o i _ _ ⟨u.rowMajor j, List.mem_finRange _, by rw [Equiv.symm_apply_apply]; exact hj⟩

/-- … and `z` where none does. -/
private theorem scatter_const_of_miss (d : ScatterDims s si u) (idx : IVec si w) (z o : α) (i : s.Idx)
    (h : ∀ j : u.Idx, d.resultIdx? j idx ≠ some i) :
    Host.scatter d (fun _ u => u) (fun _ => z) idx (fun _ => o) i = z := by
  unfold Host.scatter
  exact scatter_fold_miss d idx o i _ _ (fun n _ => h _)

end Fold
/-- The scatter-indices position update `(b, l)` reads component `c` of its index vector at: `(b, l, c)`. -/
private theorem scatter_siIdx (b : Fin 65536) (l : Fin 16)
    (c : Fin scatter_S65536x8x8_S65536x16x3_S65536x16_n_012_012_2.scatterDimsToOperandDims.length) :
    scatter_S65536x8x8_S65536x16x3_S65536x16_n_012_012_2.siIdx (ix2 b l) c = ix3 b l ⟨c.val, c.isLt⟩ := by
  funext a; refine Fin.ext ?_
  match a with
  | ⟨0, _⟩ => rfl
  | ⟨1, _⟩ => rfl
  | ⟨2, _⟩ => rfl

/-- The start of update `(b, l)` on operand axis `a`: component `a` of its index vector, read signed. -/
private theorem scatter_start (idx : IVec S65536x16x3 32) (b : Fin 65536) (l : Fin 16) (a : Fin 3) :
    scatter_S65536x8x8_S65536x16x3_S65536x16_n_012_012_2.start (ix2 b l) idx a = (idx (ix3 b l a)).toInt := by
  unfold ScatterDims.start
  fin_cases a
  · rw [dif_pos (by decide), scatter_siIdx]; rfl
  · rw [dif_pos (by decide), scatter_siIdx]; rfl
  · rw [dif_pos (by decide), scatter_siIdx]; rfl

/-- Every operand axis is inserted: no window coordinate. -/
private theorem scatter_window (j : S65536x16.Idx) (a : Fin 3) :
    scatter_S65536x8x8_S65536x16x3_S65536x16_n_012_012_2.window j a = 0 := by
  unfold ScatterDims.window
  have hk : scatter_S65536x8x8_S65536x16x3_S65536x16_n_012_012_2.sKept = [] := by decide
  rw [dif_neg (by rw [hk]; exact List.not_mem_nil)]

/-- Update `(b, l)` lands at `(p, r, c)` when its index vector, read signed, is `(p, r, c)`. -/
private theorem scatter_resultIdx_of (idx : IVec S65536x16x3 32) (b : Fin 65536) (l : Fin 16) (p : Fin 65536) (r c : Fin 8)
    (h0 : (idx (ix3 b l 0)).toInt = p.val) (h1 : (idx (ix3 b l 1)).toInt = r.val) (h2 : (idx (ix3 b l 2)).toInt = c.val) :
    scatter_S65536x8x8_S65536x16x3_S65536x16_n_012_012_2.resultIdx? (ix2 b l) idx = some (ix3 p r c) := by
  have hp := p.isLt
  have hr := r.isLt
  have hc := c.isLt
  have H : ∀ a : Fin 3, 0 ≤ scatter_S65536x8x8_S65536x16x3_S65536x16_n_012_012_2.start (ix2 b l) idx a
        + scatter_S65536x8x8_S65536x16x3_S65536x16_n_012_012_2.window (ix2 b l) a
      ∧ scatter_S65536x8x8_S65536x16x3_S65536x16_n_012_012_2.start (ix2 b l) idx a
        + scatter_S65536x8x8_S65536x16x3_S65536x16_n_012_012_2.window (ix2 b l) a < S65536x8x8.size a := by
    intro a
    rw [scatter_start, scatter_window]
    match a with
    | ⟨0, _⟩ => show 0 ≤ (idx (ix3 b l 0)).toInt + ((0 : Nat) : Int) ∧ (idx (ix3 b l 0)).toInt + ((0 : Nat) : Int) < ((65536 : Nat) : Int); rw [h0]; omega
    | ⟨1, _⟩ => show 0 ≤ (idx (ix3 b l 1)).toInt + ((0 : Nat) : Int) ∧ (idx (ix3 b l 1)).toInt + ((0 : Nat) : Int) < ((8 : Nat) : Int); rw [h1]; omega
    | ⟨2, _⟩ => show 0 ≤ (idx (ix3 b l 2)).toInt + ((0 : Nat) : Int) ∧ (idx (ix3 b l 2)).toInt + ((0 : Nat) : Int) < ((8 : Nat) : Int); rw [h2]; omega
  unfold ScatterDims.resultIdx?
  rw [dif_pos H]
  congr 1
  funext a
  refine Fin.ext ?_
  show (scatter_S65536x8x8_S65536x16x3_S65536x16_n_012_012_2.start (ix2 b l) idx a
        + scatter_S65536x8x8_S65536x16x3_S65536x16_n_012_012_2.window (ix2 b l) a).toNat = _
  rw [scatter_start, scatter_window]
  match a with
  | ⟨0, _⟩ => show ((idx (ix3 b l 0)).toInt + ((0 : Nat) : Int)).toNat = p.val; rw [h0]; omega
  | ⟨1, _⟩ => show ((idx (ix3 b l 1)).toInt + ((0 : Nat) : Int)).toNat = r.val; rw [h1]; omega
  | ⟨2, _⟩ => show ((idx (ix3 b l 2)).toInt + ((0 : Nat) : Int)).toNat = c.val; rw [h2]; omega

/-- … and only then. -/
private theorem scatter_resultIdx_inv (idx : IVec S65536x16x3 32) (b : Fin 65536) (l : Fin 16) (p : Fin 65536) (r c : Fin 8)
    (h : scatter_S65536x8x8_S65536x16x3_S65536x16_n_012_012_2.resultIdx? (ix2 b l) idx = some (ix3 p r c)) :
    (idx (ix3 b l 0)).toInt = p.val ∧ (idx (ix3 b l 1)).toInt = r.val ∧ (idx (ix3 b l 2)).toInt = c.val := by
  unfold ScatterDims.resultIdx? at h
  split at h
  · rename_i H
    have e := Option.some.inj h
    have e0 := congrArg Fin.val (congrFun e 0)
    have e1 := congrArg Fin.val (congrFun e 1)
    have e2 := congrArg Fin.val (congrFun e 2)
    have H0 := (H 0).1
    have H1 := (H 1).1
    have H2 := (H 2).1
    rw [scatter_start, scatter_window] at H0 H1 H2
    change ((scatter_S65536x8x8_S65536x16x3_S65536x16_n_012_012_2.start (ix2 b l) idx 0
        + scatter_S65536x8x8_S65536x16x3_S65536x16_n_012_012_2.window (ix2 b l) 0).toNat) = p.val at e0
    change ((scatter_S65536x8x8_S65536x16x3_S65536x16_n_012_012_2.start (ix2 b l) idx 1
        + scatter_S65536x8x8_S65536x16x3_S65536x16_n_012_012_2.window (ix2 b l) 1).toNat) = r.val at e1
    change ((scatter_S65536x8x8_S65536x16x3_S65536x16_n_012_012_2.start (ix2 b l) idx 2
        + scatter_S65536x8x8_S65536x16x3_S65536x16_n_012_012_2.window (ix2 b l) 2).toNat) = c.val at e2
    rw [scatter_start, scatter_window] at e0 e1 e2
    refine ⟨?_, ?_, ?_⟩ <;> omega
  · cases h

/-- The scatter of the constant `o` into the constant `z`: hit when some update's index vector is the position. -/
theorem scatter_const_hit {α : Type} (z o : α) (idx : IVec S65536x16x3 32) (p : Fin 65536) (r c : Fin 8)
    (h : ∃ (b : Fin 65536) (l : Fin 16), (idx (ix3 b l 0)).toInt = p.val ∧ (idx (ix3 b l 1)).toInt = r.val
      ∧ (idx (ix3 b l 2)).toInt = c.val) :
    Host.scatter scatter_S65536x8x8_S65536x16x3_S65536x16_n_012_012_2 (fun _ u => u) (fun _ => z) idx (fun _ => o) (ix3 p r c) = o := by
  obtain ⟨b, l, h0, h1, h2⟩ := h
  exact scatter_const_of_hit _ idx z o _ ⟨ix2 b l, scatter_resultIdx_of idx b l p r c h0 h1 h2⟩

/-- … and missed when none is. -/
theorem scatter_const_miss {α : Type} (z o : α) (idx : IVec S65536x16x3 32) (p : Fin 65536) (r c : Fin 8)
    (h : ¬∃ (b : Fin 65536) (l : Fin 16), (idx (ix3 b l 0)).toInt = p.val ∧ (idx (ix3 b l 1)).toInt = r.val
      ∧ (idx (ix3 b l 2)).toInt = c.val) :
    Host.scatter scatter_S65536x8x8_S65536x16x3_S65536x16_n_012_012_2 (fun _ u => u) (fun _ => z) idx (fun _ => o) (ix3 p r c) = z := by
  refine scatter_const_of_miss _ idx z o _ (fun j hj => h ?_)
  obtain ⟨b, l, rfl⟩ : ∃ b l, j = ix2 b l := ⟨j 0, j 1, eq_ix2 j⟩
  exact ⟨b, l, scatter_resultIdx_inv idx b l p r c hj⟩

/-- Three arrays of last extent one joined along the last axis: component `k` reads the `k`-th. -/
theorem concat3_read {α : Type} (a0 a1 a2 : S65536x16x1.Idx → α) (b : Fin 65536) (l : Fin 16) :
    concatenate S65536x16x3 2 [⟨S65536x16x1, a0⟩, ⟨S65536x16x1, a1⟩, ⟨S65536x16x1, a2⟩]
        Facts₀.concatenates_S65536x16x1_S65536x16x1_S65536x16x1_S65536x16x3_d2 (ix3 b l 0) = a0 (ix3 b l 0)
    ∧ concatenate S65536x16x3 2 [⟨S65536x16x1, a0⟩, ⟨S65536x16x1, a1⟩, ⟨S65536x16x1, a2⟩]
        Facts₀.concatenates_S65536x16x1_S65536x16x1_S65536x16x1_S65536x16x3_d2 (ix3 b l 1) = a1 (ix3 b l 0)
    ∧ concatenate S65536x16x3 2 [⟨S65536x16x1, a0⟩, ⟨S65536x16x1, a1⟩, ⟨S65536x16x1, a2⟩]
        Facts₀.concatenates_S65536x16x1_S65536x16x1_S65536x16x1_S65536x16x3_d2 (ix3 b l 2) = a2 (ix3 b l 0) := by
  refine ⟨?_, ?_, ?_⟩
  · show a0 _ = a0 _
    congr 1
    funext a; refine Fin.ext ?_
    match a with
    | ⟨0, _⟩ => rfl
    | ⟨1, _⟩ => rfl
    | ⟨2, _⟩ => rfl
  · show a1 _ = a1 _
    congr 1
    funext a; refine Fin.ext ?_
    match a with
    | ⟨0, _⟩ => rfl
    | ⟨1, _⟩ => rfl
    | ⟨2, _⟩ => rfl
  · show a2 _ = a2 _
    congr 1
    funext a; refine Fin.ext ?_
    match a with
    | ⟨0, _⟩ => rfl
    | ⟨1, _⟩ => rfl
    | ⟨2, _⟩ => rfl

end Cert.ReferenceIdeal.RefIndexing

end
-- ==== Proof.RefValue.lean ====
/-
  The reference program's last stage is `refTotal` of its arguments, when every label coordinate is in `[0, 8)`.

  Stage by stage at explicit coordinates: the index array holds (sample, row, column) per label, so the gathered cell is
  the responsible cell's eight numbers; the two overlap ratios, the choice bit and the three label terms follow operation
  by operation; the scatter of ones marks exactly the cells some label of the sample points at; each total sum is re-indexed
  as the sum over samples of the sum over labels (or cell numbers).
-/
import proofs.«415334_j7971459302100_4_alg».proof.Proof.Spec
import proofs.«415334_j7971459302100_4_alg».proof.Proof.RefIndexing
import proofs.«415334_j7971459302100_4_alg».proof.Proof.RefRead
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.LossSpec Cert.ReferenceIdeal.RefIndexing

/-! ## Words and indices -/

/-- "If negative add the extent" leaves a non-negative word as it is. -/
theorem sel_nonneg (x a z : BitVec 32) (hz : z.toInt = 0) (h : 0 ≤ x.toInt) :
    Scalar.select (IntOp.cmpi .slt x z) a x = x := by
  have hs : x.slt z = false := by
    rw [Bool.eq_false_iff]; intro hlt
    rw [BitVec.slt_iff_toInt_lt] at hlt; omega
  unfold Scalar.select IntOp.cmpi
  simp only [hs]
  exact if_neg (by decide)

/-- A word below 8 read signed is itself. -/
theorem toInt_small (x : BitVec 32) (h : x.toNat < 8) : x.toInt = (x.toNat : Int) := by
  rw [BitVec.toInt_eq_toNat_cond]; rw [if_pos (by omega)]

/-- The word of a sample number read signed is the number. -/
theorem toInt_ofNat_small (b : Nat) (h : b < 65536) : (BitVec.ofNat 32 b).toInt = (b : Int) := by
  rw [BitVec.toInt_eq_toNat_cond, BitVec.toNat_ofNat]
  have : b % 2 ^ 32 = b := Nat.mod_eq_of_lt (by omega)
  rw [this, if_pos (by omega)]

/-- A rank-3 index over (sample, label, ·) whose first two coordinates are the row-major split of `16 b + l`. -/
theorem idx3_eq {n : Nat} (j : (⟨3, ![65536, 16, n]⟩ : Shape).Idx) (b : Fin 65536) (l : Fin 16) (k : Fin n)
    (h0 : (j 0).val = (b.val * 16 + l.val) / 16) (h1 : (j 1).val = (b.val * 16 + l.val) / 1 % 16)
    (h2 : (j 2).val = k.val) : j = ix3 b l k := by
  have hb := b.isLt
  have hl := l.isLt
  funext a
  match a with
  | ⟨0, _⟩ => exact Fin.ext (h0.trans (by show (b.val * 16 + l.val) / 16 = b.val; omega))
  | ⟨1, _⟩ => exact Fin.ext (h1.trans (by show (b.val * 16 + l.val) / 1 % 16 = l.val; omega))
  | ⟨2, _⟩ => exact Fin.ext h2

/-- A rank-2 index by its coordinates' values. -/
theorem idx2_eq (j : (⟨2, ![65536, 16]⟩ : Shape).Idx) (b : Fin 65536) (l : Fin 16)
    (h0 : (j 0).val = b.val) (h1 : (j 1).val = l.val) : j = ix2 b l := by
  funext a
  match a with
  | ⟨0, _⟩ => exact Fin.ext h0
  | ⟨1, _⟩ => exact Fin.ext h1

/-! ## The index array -/

/-- The row of label `l` of sample `b`. -/
theorem rows_at (x1 : (⟨S65536x16x2, .i32⟩ : BufTy).Contents (Elt Ideal)) (b : Fin 65536) (l : Fin 16) : val_main_v1 (F := Ideal) x1 (ix2 b l) = x1 (ix3 b l 0) := by
  rw [val_main_v1_apply, val_main_v0_apply]
  exact congrArg x1 (idx3_eq (idx_main_v0 (idx_main_v1 (ix2 b l))) b l 0 rfl rfl rfl)

/-- Its column. -/
theorem cols_at (x1 : (⟨S65536x16x2, .i32⟩ : BufTy).Contents (Elt Ideal)) (b : Fin 65536) (l : Fin 16) : val_main_v3 (F := Ideal) x1 (ix2 b l) = x1 (ix3 b l 1) := by
  rw [val_main_v3_apply, val_main_v2_apply]
  exact congrArg x1 (idx3_eq (idx_main_v2 (idx_main_v3 (ix2 b l))) b l 1 rfl rfl rfl)

theorem v15_at (x1 : (⟨S65536x16x2, .i32⟩ : BufTy).Contents (Elt Ideal)) (hrc : ∀ i, (x1 i).toNat < 8) (b : Fin 65536) (l : Fin 16) : val_main_v15 (F := Ideal) x1 (ix2 b l) = x1 (ix3 b l 0) := by
  rw [val_main_v15_apply, val_main_v12_apply, val_main_v11_apply, val_main_c_1_apply, rows_at]
  exact sel_nonneg _ _ _ rfl (by rw [toInt_small _ (hrc _)]; exact Int.natCast_nonneg _)

theorem v20_at (x1 : (⟨S65536x16x2, .i32⟩ : BufTy).Contents (Elt Ideal)) (hrc : ∀ i, (x1 i).toNat < 8) (b : Fin 65536) (l : Fin 16) : val_main_v20 (F := Ideal) x1 (ix2 b l) = x1 (ix3 b l 1) := by
  rw [val_main_v20_apply, val_main_v17_apply, val_main_v16_apply, val_main_c_3_apply, cols_at]
  exact sel_nonneg _ _ _ rfl (by rw [toInt_small _ (hrc _)]; exact Int.natCast_nonneg _)

theorem v10_at (i : S65536x1.Idx) : val_main_v10 (F := Ideal) i = BitVec.ofNat 32 (i 0).val := by
  rw [val_main_v10_apply, val_main_v7_apply, val_main_v6_apply, val_main_c_apply, val_main_v5_apply, val_main_v4_apply]
  exact sel_nonneg _ _ _ rfl (by rw [toInt_ofNat_small _ (i 0).isLt]; exact Int.natCast_nonneg _)

theorem v22_at (b : Fin 65536) (l : Fin 16) : val_main_v22 (F := Ideal) (ix3 b l 0) = BitVec.ofNat 32 b.val := by
  rw [val_main_v22_apply, val_main_v21_apply, v10_at]

theorem v23_at (x1 : (⟨S65536x16x2, .i32⟩ : BufTy).Contents (Elt Ideal)) (hrc : ∀ i, (x1 i).toNat < 8) (b : Fin 65536) (l : Fin 16) : val_main_v23 (F := Ideal) x1 (ix3 b l 0) = x1 (ix3 b l 0) := by
  rw [val_main_v23_apply]
  exact (congrArg (val_main_v15 (F := Ideal) x1) (idx2_eq (idx_main_v23 (ix3 b l 0)) b l rfl rfl)).trans (v15_at x1 hrc b l)

theorem v24_at (x1 : (⟨S65536x16x2, .i32⟩ : BufTy).Contents (Elt Ideal)) (hrc : ∀ i, (x1 i).toNat < 8) (b : Fin 65536) (l : Fin 16) : val_main_v24 (F := Ideal) x1 (ix3 b l 0) = x1 (ix3 b l 1) := by
  rw [val_main_v24_apply]
  exact (congrArg (val_main_v20 (F := Ideal) x1) (idx2_eq (idx_main_v24 (ix3 b l 0)) b l rfl rfl)).trans (v20_at x1 hrc b l)

/-- The index array holds (sample, row, column) per label. -/
theorem v25_at (x1 : (⟨S65536x16x2, .i32⟩ : BufTy).Contents (Elt Ideal)) (hrc : ∀ i, (x1 i).toNat < 8) (b : Fin 65536) (l : Fin 16) :
    val_main_v25 (F := Ideal) x1 (ix3 b l 0) = BitVec.ofNat 32 b.val
    ∧ val_main_v25 (F := Ideal) x1 (ix3 b l 1) = x1 (ix3 b l 0)
    ∧ val_main_v25 (F := Ideal) x1 (ix3 b l 2) = x1 (ix3 b l 1) := by
  unfold val_main_v25
  obtain ⟨h0, h1, h2⟩ := concat3_read (val_main_v22 (F := Ideal)) (val_main_v23 (F := Ideal) x1) (val_main_v24 (F := Ideal) x1) b l
  exact ⟨h0.trans (v22_at b l), h1.trans (v23_at x1 hrc b l), h2.trans (v24_at x1 hrc b l)⟩

/-- The gathered cell of label `l` of sample `b` is the responsible cell's numbers. -/
theorem pb_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) (d : Fin 8) :
    val_main_v26 (F := Ideal) x0 x1 (ix3 b l d) = pbAt x0 x1 b l d := by
  obtain ⟨h0, h1, h2⟩ := v25_at x1 hrc b l
  have hr := hrc (ix3 b l 0)
  have hc := hrc (ix3 b l 1)
  unfold val_main_v26
  rw [gather_read x0 (val_main_v25 (F := Ideal) x1) b l d b ⟨(x1 (ix3 b l 0)).toNat, hr⟩ ⟨(x1 (ix3 b l 1)).toNat, hc⟩
      (by rw [h0]; exact toInt_ofNat_small _ b.isLt) (by rw [h1]; exact toInt_small _ hr) (by rw [h2]; exact toInt_small _ hc)]
  unfold pbAt predCell cellAt
  refine congrArg x0 ?_
  funext a
  match a with
  | ⟨0, _⟩ => rfl
  | ⟨1, _⟩ => exact Fin.ext (by show (x1 (ix3 b l 0)).toNat = ((x1 (ix3 b l 0)).toNat % 8 * 8 + (x1 (ix3 b l 1)).toNat % 8) / 8; omega)
  | ⟨2, _⟩ => exact Fin.ext (by show (x1 (ix3 b l 1)).toNat = ((x1 (ix3 b l 0)).toNat % 8 * 8 + (x1 (ix3 b l 1)).toNat % 8) % 8; omega)
  | ⟨3, _⟩ => rfl

/-! ## The slices: the label's box, the cell's numbers -/

theorem v28_at (x2 : (⟨S65536x16x3, .f32⟩ : BufTy).Contents (Elt Ideal)) (b : Fin 65536) (l : Fin 16) : val_main_v28 (F := Ideal) x2 (ix2 b l) = gAt x2 b l 0 := by
  rw [val_main_v28_apply, val_main_v27_apply]
  exact congrArg x2 (idx3_eq (idx_main_v27 (idx_main_v28 (ix2 b l))) b l 0 rfl rfl rfl)

theorem v30_at (x2 : (⟨S65536x16x3, .f32⟩ : BufTy).Contents (Elt Ideal)) (b : Fin 65536) (l : Fin 16) : val_main_v30 (F := Ideal) x2 (ix2 b l) = gAt x2 b l 1 := by
  rw [val_main_v30_apply, val_main_v29_apply]
  exact congrArg x2 (idx3_eq (idx_main_v29 (idx_main_v30 (ix2 b l))) b l 1 rfl rfl rfl)

theorem v32_at (x2 : (⟨S65536x16x3, .f32⟩ : BufTy).Contents (Elt Ideal)) (b : Fin 65536) (l : Fin 16) : val_main_v32 (F := Ideal) x2 (ix2 b l) = gAt x2 b l 2 := by
  rw [val_main_v32_apply, val_main_v31_apply]
  exact congrArg x2 (idx3_eq (idx_main_v31 (idx_main_v32 (ix2 b l))) b l 2 rfl rfl rfl)

theorem v34_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v34 (F := Ideal) x0 x1 (ix2 b l) = pbAt x0 x1 b l 0 := by
  rw [val_main_v34_apply, val_main_v33_apply]
  exact (congrArg (val_main_v26 (F := Ideal) x0 x1) (idx3_eq (idx_main_v33 (idx_main_v34 (ix2 b l))) b l 0 rfl rfl rfl)).trans (pb_at x0 x1 hrc b l 0)

theorem v36_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v36 (F := Ideal) x0 x1 (ix2 b l) = pbAt x0 x1 b l 1 := by
  rw [val_main_v36_apply, val_main_v35_apply]
  exact (congrArg (val_main_v26 (F := Ideal) x0 x1) (idx3_eq (idx_main_v35 (idx_main_v36 (ix2 b l))) b l 1 rfl rfl rfl)).trans (pb_at x0 x1 hrc b l 1)

theorem v38_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v38 (F := Ideal) x0 x1 (ix2 b l) = pbAt x0 x1 b l 2 := by
  rw [val_main_v38_apply, val_main_v37_apply]
  exact (congrArg (val_main_v26 (F := Ideal) x0 x1) (idx3_eq (idx_main_v37 (idx_main_v38 (ix2 b l))) b l 2 rfl rfl rfl)).trans (pb_at x0 x1 hrc b l 2)

theorem v70_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v70 (F := Ideal) x0 x1 (ix2 b l) = pbAt x0 x1 b l 4 := by
  rw [val_main_v70_apply, val_main_v69_apply]
  exact (congrArg (val_main_v26 (F := Ideal) x0 x1) (idx3_eq (idx_main_v69 (idx_main_v70 (ix2 b l))) b l 4 rfl rfl rfl)).trans (pb_at x0 x1 hrc b l 4)

theorem v72_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v72 (F := Ideal) x0 x1 (ix2 b l) = pbAt x0 x1 b l 5 := by
  rw [val_main_v72_apply, val_main_v71_apply]
  exact (congrArg (val_main_v26 (F := Ideal) x0 x1) (idx3_eq (idx_main_v71 (idx_main_v72 (ix2 b l))) b l 5 rfl rfl rfl)).trans (pb_at x0 x1 hrc b l 5)

theorem v74_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v74 (F := Ideal) x0 x1 (ix2 b l) = pbAt x0 x1 b l 6 := by
  rw [val_main_v74_apply, val_main_v73_apply]
  exact (congrArg (val_main_v26 (F := Ideal) x0 x1) (idx3_eq (idx_main_v73 (idx_main_v74 (ix2 b l))) b l 6 rfl rfl rfl)).trans (pb_at x0 x1 hrc b l 6)

theorem v107_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v107 (F := Ideal) x0 x1 (ix2 b l) = pbAt x0 x1 b l 4 := by
  rw [val_main_v107_apply, val_main_v106_apply]
  exact (congrArg (val_main_v26 (F := Ideal) x0 x1) (idx3_eq (idx_main_v106 (idx_main_v107 (ix2 b l))) b l 4 rfl rfl rfl)).trans (pb_at x0 x1 hrc b l 4)

theorem v109_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v109 (F := Ideal) x0 x1 (ix2 b l) = pbAt x0 x1 b l 0 := by
  rw [val_main_v109_apply, val_main_v108_apply]
  exact (congrArg (val_main_v26 (F := Ideal) x0 x1) (idx3_eq (idx_main_v108 (idx_main_v109 (ix2 b l))) b l 0 rfl rfl rfl)).trans (pb_at x0 x1 hrc b l 0)

theorem v112_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v112 (F := Ideal) x0 x1 (ix2 b l) = pbAt x0 x1 b l 5 := by
  rw [val_main_v112_apply, val_main_v111_apply]
  exact (congrArg (val_main_v26 (F := Ideal) x0 x1) (idx3_eq (idx_main_v111 (idx_main_v112 (ix2 b l))) b l 5 rfl rfl rfl)).trans (pb_at x0 x1 hrc b l 5)

theorem v114_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v114 (F := Ideal) x0 x1 (ix2 b l) = pbAt x0 x1 b l 1 := by
  rw [val_main_v114_apply, val_main_v113_apply]
  exact (congrArg (val_main_v26 (F := Ideal) x0 x1) (idx3_eq (idx_main_v113 (idx_main_v114 (ix2 b l))) b l 1 rfl rfl rfl)).trans (pb_at x0 x1 hrc b l 1)

theorem v117_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v117 (F := Ideal) x0 x1 (ix2 b l) = pbAt x0 x1 b l 6 := by
  rw [val_main_v117_apply, val_main_v116_apply]
  exact (congrArg (val_main_v26 (F := Ideal) x0 x1) (idx3_eq (idx_main_v116 (idx_main_v117 (ix2 b l))) b l 6 rfl rfl rfl)).trans (pb_at x0 x1 hrc b l 6)

theorem v119_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v119 (F := Ideal) x0 x1 (ix2 b l) = pbAt x0 x1 b l 2 := by
  rw [val_main_v119_apply, val_main_v118_apply]
  exact (congrArg (val_main_v26 (F := Ideal) x0 x1) (idx3_eq (idx_main_v118 (idx_main_v119 (ix2 b l))) b l 2 rfl rfl rfl)).trans (pb_at x0 x1 hrc b l 2)

theorem v122_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v122 (F := Ideal) x0 x1 (ix2 b l) = pbAt x0 x1 b l 7 := by
  rw [val_main_v122_apply, val_main_v121_apply]
  exact (congrArg (val_main_v26 (F := Ideal) x0 x1) (idx3_eq (idx_main_v121 (idx_main_v122 (ix2 b l))) b l 7 rfl rfl rfl)).trans (pb_at x0 x1 hrc b l 7)

theorem v124_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v124 (F := Ideal) x0 x1 (ix2 b l) = pbAt x0 x1 b l 3 := by
  rw [val_main_v124_apply, val_main_v123_apply]
  exact (congrArg (val_main_v26 (F := Ideal) x0 x1) (idx3_eq (idx_main_v123 (idx_main_v124 (ix2 b l))) b l 3 rfl rfl rfl)).trans (pb_at x0 x1 hrc b l 3)

theorem v127_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v127 (F := Ideal) x0 x1 (ix2 b l) = pbAt x0 x1 b l 3 := by
  rw [val_main_v127_apply, val_main_v126_apply]
  exact (congrArg (val_main_v26 (F := Ideal) x0 x1) (idx3_eq (idx_main_v126 (idx_main_v127 (ix2 b l))) b l 3 rfl rfl rfl)).trans (pb_at x0 x1 hrc b l 3)

theorem v129_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (l : Fin 16) : val_main_v129 (F := Ideal) x0 x1 (ix2 b l) = pbAt x0 x1 b l 7 := by
  rw [val_main_v129_apply, val_main_v128_apply]
  exact (congrArg (val_main_v26 (F := Ideal) x0 x1) (idx3_eq (idx_main_v128 (idx_main_v129 (ix2 b l))) b l 7 rfl rfl rfl)).trans (pb_at x0 x1 hrc b l 7)

/-! ## The two ratios, the choice, the three label terms -/

theorem iouA_at (x0 : (⟨S65536x8x8x8, .f32⟩ : BufTy).Contents (Elt Ideal)) (x1 : (⟨S65536x16x2, .i32⟩ : BufTy).Contents (Elt Ideal)) (x2 : (⟨S65536x16x3, .f32⟩ : BufTy).Contents (Elt Ideal)) (hrc : ∀ i, (x1 i).toNat < 8) (b : Fin 65536) (l : Fin 16) :
    val_main_v68 (F := Ideal) x0 x1 x2 (ix2 b l) = iouA (pbAt x0 x1 b l) (gAt x2 b l) := by
  simp only [val_main_v68_apply, val_main_v67_apply, val_main_v66_apply, val_main_cst_6_apply, val_main_v65_apply, val_main_v64_apply, val_main_v63_apply, val_main_v62_apply, val_main_v61_apply, val_main_v60_apply, val_main_v59_apply, val_main_v58_apply, val_main_v57_apply, val_main_v56_apply, val_main_v55_apply, val_main_cst_5_apply, val_main_v54_apply, val_main_v53_apply, val_main_v52_apply, val_main_v51_apply, val_main_v50_apply, val_main_cst_apply, val_main_v49_apply, val_main_v48_apply, val_main_v47_apply, val_main_v46_apply, val_main_v45_apply, val_main_v44_apply, val_main_v43_apply, val_main_v42_apply, val_main_v41_apply, val_main_v40_apply, val_main_v39_apply,
    v34_at x0 x1 hrc, v36_at x0 x1 hrc, v38_at x0 x1 hrc, v28_at, v30_at, v32_at, Ideal.hostDivf_def, Ideal.addf_def, Ideal.subf_def, Ideal.mulf_def, Ideal.maximumf_def, Ideal.minimumf_def, Ideal.ofBits_def, Ideal.ofBits_zero_f32]
  rfl

theorem iouB_at (x0 : (⟨S65536x8x8x8, .f32⟩ : BufTy).Contents (Elt Ideal)) (x1 : (⟨S65536x16x2, .i32⟩ : BufTy).Contents (Elt Ideal)) (x2 : (⟨S65536x16x3, .f32⟩ : BufTy).Contents (Elt Ideal)) (hrc : ∀ i, (x1 i).toNat < 8) (b : Fin 65536) (l : Fin 16) :
    val_main_v104 (F := Ideal) x0 x1 x2 (ix2 b l) = iouB (pbAt x0 x1 b l) (gAt x2 b l) := by
  simp only [val_main_v104_apply, val_main_v103_apply, val_main_v102_apply, val_main_cst_9_apply, val_main_v101_apply, val_main_v100_apply, val_main_v99_apply, val_main_v98_apply, val_main_v97_apply, val_main_v96_apply, val_main_v95_apply, val_main_v94_apply, val_main_v93_apply, val_main_v92_apply, val_main_v91_apply, val_main_cst_8_apply, val_main_v90_apply, val_main_v89_apply, val_main_v88_apply, val_main_v87_apply, val_main_v86_apply, val_main_cst_7_apply, val_main_v85_apply, val_main_v84_apply, val_main_v83_apply, val_main_v82_apply, val_main_v81_apply, val_main_v80_apply, val_main_v79_apply, val_main_v78_apply, val_main_v77_apply, val_main_v76_apply, val_main_v75_apply,
    v70_at x0 x1 hrc, v72_at x0 x1 hrc, v74_at x0 x1 hrc, v28_at, v30_at, v32_at, Ideal.hostDivf_def, Ideal.addf_def, Ideal.subf_def, Ideal.mulf_def, Ideal.maximumf_def, Ideal.minimumf_def, Ideal.ofBits_def, Ideal.ofBits_zero_f32]
  rfl

theorem swap_at (x0 : (⟨S65536x8x8x8, .f32⟩ : BufTy).Contents (Elt Ideal)) (x1 : (⟨S65536x16x2, .i32⟩ : BufTy).Contents (Elt Ideal)) (x2 : (⟨S65536x16x3, .f32⟩ : BufTy).Contents (Elt Ideal)) (hrc : ∀ i, (x1 i).toNat < 8) (b : Fin 65536) (l : Fin 16) :
    val_main_v105 (F := Ideal) x0 x1 x2 (ix2 b l) = swapBit (pbAt x0 x1 b l) (gAt x2 b l) := by
  rw [val_main_v105_apply, iouA_at x0 x1 x2 hrc, iouB_at x0 x1 x2 hrc]
  rfl

theorem coord_at (x0 : (⟨S65536x8x8x8, .f32⟩ : BufTy).Contents (Elt Ideal)) (x1 : (⟨S65536x16x2, .i32⟩ : BufTy).Contents (Elt Ideal)) (x2 : (⟨S65536x16x3, .f32⟩ : BufTy).Contents (Elt Ideal)) (hrc : ∀ i, (x1 i).toNat < 8) (b : Fin 65536) (l : Fin 16) :
    val_main_v140 (F := Ideal) x0 x1 x2 (ix2 b l) = leafCoord x0 x1 x2 b l := by
  simp only [val_main_v140_apply, val_main_v139_apply, val_main_v138_apply, val_main_v137_apply, val_main_v136_apply, val_main_v135_apply, val_main_v134_apply, val_main_v133_apply, val_main_v120_apply, val_main_v115_apply, val_main_v110_apply,
    swap_at x0 x1 x2 hrc, v107_at x0 x1 hrc, v109_at x0 x1 hrc, v112_at x0 x1 hrc, v114_at x0 x1 hrc, v117_at x0 x1 hrc, v119_at x0 x1 hrc,
    v28_at, v30_at, v32_at, Ideal.addf_def, Ideal.subf_def, Ideal.mulf_def]
  rfl

theorem conf_at (x0 : (⟨S65536x8x8x8, .f32⟩ : BufTy).Contents (Elt Ideal)) (x1 : (⟨S65536x16x2, .i32⟩ : BufTy).Contents (Elt Ideal)) (x2 : (⟨S65536x16x3, .f32⟩ : BufTy).Contents (Elt Ideal)) (hrc : ∀ i, (x1 i).toNat < 8) (b : Fin 65536) (l : Fin 16) :
    val_main_v144 (F := Ideal) x0 x1 x2 (ix2 b l) = leafConf x0 x1 x2 b l := by
  simp only [val_main_v144_apply, val_main_v143_apply, val_main_v131_apply, val_main_v125_apply,
    swap_at x0 x1 x2 hrc, iouA_at x0 x1 x2 hrc, iouB_at x0 x1 x2 hrc, v122_at x0 x1 hrc, v124_at x0 x1 hrc, Ideal.subf_def, Ideal.mulf_def]
  rfl

theorem other_at (x0 : (⟨S65536x8x8x8, .f32⟩ : BufTy).Contents (Elt Ideal)) (x1 : (⟨S65536x16x2, .i32⟩ : BufTy).Contents (Elt Ideal)) (x2 : (⟨S65536x16x3, .f32⟩ : BufTy).Contents (Elt Ideal)) (hrc : ∀ i, (x1 i).toNat < 8) (b : Fin 65536) (l : Fin 16) :
    val_main_v147 (F := Ideal) x0 x1 x2 (ix2 b l) = leafOther x0 x1 x2 b l := by
  simp only [val_main_v147_apply, val_main_v146_apply, val_main_v132_apply, val_main_v130_apply,
    swap_at x0 x1 x2 hrc, iouA_at x0 x1 x2 hrc, iouB_at x0 x1 x2 hrc, v127_at x0 x1 hrc, v129_at x0 x1 hrc, Ideal.subf_def, Ideal.mulf_def]
  rfl

/-! ## The three label sums -/

theorem sumCoord (x0 : (⟨S65536x8x8x8, .f32⟩ : BufTy).Contents (Elt Ideal)) (x1 : (⟨S65536x16x2, .i32⟩ : BufTy).Contents (Elt Ideal)) (x2 : (⟨S65536x16x3, .f32⟩ : BufTy).Contents (Elt Ideal)) (hrc : ∀ i, (x1 i).toNat < 8) (i : S_.Idx) :
    val_main_v141 (F := Ideal) x0 x1 x2 i = 0 + ∑ b : Fin 65536, ∑ l : Fin 16, leafCoord x0 x1 x2 b l := by
  rw [val_main_v141_apply, val_main_cst_10_apply, Ideal.ofBits_def, Ideal.ofBits_zero_f32, sum_idx2]
  exact congrArg (fun s => (0 : EReal) + s)
    (Finset.sum_congr rfl fun b _ => Finset.sum_congr rfl fun l _ => coord_at x0 x1 x2 hrc b l)

theorem sumConf (x0 : (⟨S65536x8x8x8, .f32⟩ : BufTy).Contents (Elt Ideal)) (x1 : (⟨S65536x16x2, .i32⟩ : BufTy).Contents (Elt Ideal)) (x2 : (⟨S65536x16x3, .f32⟩ : BufTy).Contents (Elt Ideal)) (hrc : ∀ i, (x1 i).toNat < 8) (i : S_.Idx) :
    val_main_v145 (F := Ideal) x0 x1 x2 i = 0 + ∑ b : Fin 65536, ∑ l : Fin 16, leafConf x0 x1 x2 b l := by
  rw [val_main_v145_apply, val_main_cst_12_apply, Ideal.ofBits_def, Ideal.ofBits_zero_f32, sum_idx2]
  exact congrArg (fun s => (0 : EReal) + s)
    (Finset.sum_congr rfl fun b _ => Finset.sum_congr rfl fun l _ => conf_at x0 x1 x2 hrc b l)

theorem sumOther (x0 : (⟨S65536x8x8x8, .f32⟩ : BufTy).Contents (Elt Ideal)) (x1 : (⟨S65536x16x2, .i32⟩ : BufTy).Contents (Elt Ideal)) (x2 : (⟨S65536x16x3, .f32⟩ : BufTy).Contents (Elt Ideal)) (hrc : ∀ i, (x1 i).toNat < 8) (i : S_.Idx) :
    val_main_v148 (F := Ideal) x0 x1 x2 i = 0 + ∑ b : Fin 65536, ∑ l : Fin 16, leafOther x0 x1 x2 b l := by
  rw [val_main_v148_apply, val_main_cst_13_apply, Ideal.ofBits_def, Ideal.ofBits_zero_f32, sum_idx2]
  exact congrArg (fun s => (0 : EReal) + s)
    (Finset.sum_congr rfl fun b _ => Finset.sum_congr rfl fun l _ => other_at x0 x1 x2 hrc b l)

/-! ## The mark array -/

theorem v156_at (i : S65536x1.Idx) : val_main_v156 (F := Ideal) i = BitVec.ofNat 32 (i 0).val := by
  rw [val_main_v156_apply, val_main_v153_apply, val_main_v152_apply, val_main_c_16_apply, val_main_v5_apply, val_main_v4_apply]
  exact sel_nonneg _ _ _ rfl (by rw [toInt_ofNat_small _ (i 0).isLt]; exact Int.natCast_nonneg _)

theorem v161_at (x1 : (⟨S65536x16x2, .i32⟩ : BufTy).Contents (Elt Ideal)) (hrc : ∀ i, (x1 i).toNat < 8) (b : Fin 65536) (l : Fin 16) : val_main_v161 (F := Ideal) x1 (ix2 b l) = x1 (ix3 b l 0) := by
  rw [val_main_v161_apply, val_main_v158_apply, val_main_v157_apply, val_main_c_18_apply, rows_at]
  exact sel_nonneg _ _ _ rfl (by rw [toInt_small _ (hrc _)]; exact Int.natCast_nonneg _)

theorem v166_at (x1 : (⟨S65536x16x2, .i32⟩ : BufTy).Contents (Elt Ideal)) (hrc : ∀ i, (x1 i).toNat < 8) (b : Fin 65536) (l : Fin 16) : val_main_v166 (F := Ideal) x1 (ix2 b l) = x1 (ix3 b l 1) := by
  rw [val_main_v166_apply, val_main_v163_apply, val_main_v162_apply, val_main_c_20_apply, cols_at]
  exact sel_nonneg _ _ _ rfl (by rw [toInt_small _ (hrc _)]; exact Int.natCast_nonneg _)

theorem v168_at (b : Fin 65536) (l : Fin 16) : val_main_v168 (F := Ideal) (ix3 b l 0) = BitVec.ofNat 32 b.val := by
  rw [val_main_v168_apply, val_main_v167_apply, v156_at]

theorem v169_at (x1 : (⟨S65536x16x2, .i32⟩ : BufTy).Contents (Elt Ideal)) (hrc : ∀ i, (x1 i).toNat < 8) (b : Fin 65536) (l : Fin 16) : val_main_v169 (F := Ideal) x1 (ix3 b l 0) = x1 (ix3 b l 0) := by
  rw [val_main_v169_apply]
  exact (congrArg (val_main_v161 (F := Ideal) x1) (idx2_eq (idx_main_v169 (ix3 b l 0)) b l rfl rfl)).trans (v161_at x1 hrc b l)

theorem v170_at (x1 : (⟨S65536x16x2, .i32⟩ : BufTy).Contents (Elt Ideal)) (hrc : ∀ i, (x1 i).toNat < 8) (b : Fin 65536) (l : Fin 16) : val_main_v170 (F := Ideal) x1 (ix3 b l 0) = x1 (ix3 b l 1) := by
  rw [val_main_v170_apply]
  exact (congrArg (val_main_v166 (F := Ideal) x1) (idx2_eq (idx_main_v170 (ix3 b l 0)) b l rfl rfl)).trans (v166_at x1 hrc b l)

/-- The second index array holds (sample, row, column) per label too. -/
theorem v171_at (x1 : (⟨S65536x16x2, .i32⟩ : BufTy).Contents (Elt Ideal)) (hrc : ∀ i, (x1 i).toNat < 8) (b : Fin 65536) (l : Fin 16) :
    val_main_v171 (F := Ideal) x1 (ix3 b l 0) = BitVec.ofNat 32 b.val
    ∧ val_main_v171 (F := Ideal) x1 (ix3 b l 1) = x1 (ix3 b l 0)
    ∧ val_main_v171 (F := Ideal) x1 (ix3 b l 2) = x1 (ix3 b l 1) := by
  unfold val_main_v171
  obtain ⟨h0, h1, h2⟩ := concat3_read (val_main_v168 (F := Ideal)) (val_main_v169 (F := Ideal) x1) (val_main_v170 (F := Ideal) x1) b l
  exact ⟨h0.trans (v168_at b l), h1.trans (v169_at x1 hrc b l), h2.trans (v170_at x1 hrc b l)⟩

theorem v151_const : val_main_v151 (F := Ideal) = fun _ => Ideal.ofBits .f32 0x00000000#32 := by
  funext i
  rw [val_main_v151_apply, val_main_cst_15_apply]
  rfl

theorem v172_const : val_main_v172 (F := Ideal) = fun _ => Ideal.ofBits .f32 0x3F800000#32 := by
  funext i
  rw [val_main_v172_apply, val_main_cst_22_apply]
  rfl

/-- The mark of cell `(r, c)` of sample `b`: one when some label of the sample has that row and column, else zero. -/
theorem mark_at (x1 : (⟨S65536x16x2, .i32⟩ : BufTy).Contents (Elt Ideal)) (hrc : ∀ i, (x1 i).toNat < 8) (b : Fin 65536) (r c : Fin 8) :
    val_main_v173 (F := Ideal) x1 (ix3 b r c)
      = if ∃ l : Fin 16, (x1 (ix3 b l 0)).toNat = r.val ∧ (x1 (ix3 b l 1)).toNat = c.val then (1 : EReal) else 0 := by
  unfold val_main_v173
  rw [v151_const, v172_const]
  by_cases h : ∃ l : Fin 16, (x1 (ix3 b l 0)).toNat = r.val ∧ (x1 (ix3 b l 1)).toNat = c.val
  · rw [if_pos h]
    obtain ⟨l, hl0, hl1⟩ := h
    obtain ⟨h0, h1, h2⟩ := v171_at x1 hrc b l
    have hit : ∃ (b' : Fin 65536) (l : Fin 16), (val_main_v171 (F := Ideal) x1 (ix3 b' l 0)).toInt = b.val ∧ (val_main_v171 (F := Ideal) x1 (ix3 b' l 1)).toInt = r.val ∧ (val_main_v171 (F := Ideal) x1 (ix3 b' l 2)).toInt = c.val :=
      ⟨b, l, by rw [h0]; exact toInt_ofNat_small _ b.isLt, by rw [h1, toInt_small _ (hrc _), hl0],
        by rw [h2, toInt_small _ (hrc _), hl1]⟩
    rw [scatter_const_hit _ _ _ b r c hit]
    exact Ideal.ofBits_one_f32
  · rw [if_neg h]
    have miss : ¬∃ (b' : Fin 65536) (l : Fin 16), (val_main_v171 (F := Ideal) x1 (ix3 b' l 0)).toInt = b.val ∧ (val_main_v171 (F := Ideal) x1 (ix3 b' l 1)).toInt = r.val ∧ (val_main_v171 (F := Ideal) x1 (ix3 b' l 2)).toInt = c.val := by
      rintro ⟨b', l, g0, g1, g2⟩
      obtain ⟨h0, h1, h2⟩ := v171_at x1 hrc b' l
      rw [h0, toInt_ofNat_small _ b'.isLt] at g0
      rw [h1, toInt_small _ (hrc _)] at g1
      rw [h2, toInt_small _ (hrc _)] at g2
      have hb : b' = b := Fin.ext (by exact_mod_cast g0)
      subst hb
      exact h ⟨l, by exact_mod_cast g1, by exact_mod_cast g2⟩
    rw [scatter_const_miss _ _ _ b r c miss]
    exact Ideal.ofBits_zero_f32

/-! ## The cell term and its sum -/

/-- A rank-4 index over (sample, row, column, ·) whose first three coordinates are the row-major split of `64 b + 8 r + c`. -/
theorem idx4_eq (j : (⟨4, ![65536, 8, 8, 8]⟩ : Shape).Idx) (b : Fin 65536) (r c k : Fin 8)
    (h0 : (j 0).val = ((b.val * 8 + r.val) * 8 + c.val) / 64)
    (h1 : (j 1).val = ((b.val * 8 + r.val) * 8 + c.val) / 8 % 8)
    (h2 : (j 2).val = ((b.val * 8 + r.val) * 8 + c.val) / 1 % 8)
    (h3 : (j 3).val = k.val) : j = ix4 b r c k := by
  have hb := b.isLt
  have hr := r.isLt
  have hc := c.isLt
  funext a
  match a with
  | ⟨0, _⟩ => exact Fin.ext (h0.trans (by show ((b.val * 8 + r.val) * 8 + c.val) / 64 = b.val; omega))
  | ⟨1, _⟩ => exact Fin.ext (h1.trans (by show ((b.val * 8 + r.val) * 8 + c.val) / 8 % 8 = r.val; omega))
  | ⟨2, _⟩ => exact Fin.ext (h2.trans (by show ((b.val * 8 + r.val) * 8 + c.val) / 1 % 8 = c.val; omega))
  | ⟨3, _⟩ => exact Fin.ext h3

/-- The two squared confidences of cell `(r, c)` of sample `b`. -/
theorem cellSq_at (x0 : (⟨S65536x8x8x8, .f32⟩ : BufTy).Contents (Elt Ideal)) (b : Fin 65536) (r c : Fin 8) :
    val_main_v180 (F := Ideal) x0 (ix3 b r c)
      = x0 (ix4 b r c 3) * x0 (ix4 b r c 3) + x0 (ix4 b r c 7) * x0 (ix4 b r c 7) := by
  rw [val_main_v180_apply, val_main_v179_apply, val_main_v176_apply, val_main_v178_apply, val_main_v177_apply,
    val_main_v175_apply, val_main_v174_apply,
    idx4_eq (idx_main_v174 (idx_main_v175 (ix3 b r c))) b r c 3 rfl rfl rfl rfl,
    idx4_eq (idx_main_v177 (idx_main_v178 (ix3 b r c))) b r c 7 rfl rfl rfl rfl]
  rfl

/-- A cell number is its row and column. -/
theorem cell_split (r c : Nat) (hr : r < 8) (hc : c < 8) (cell : Fin 64) :
    r % 8 * 8 + c % 8 = cell.val ↔ r = cell.val / 8 ∧ c = cell.val % 8 := by
  have := cell.isLt
  omega

theorem cell_mark (x1 : (⟨S65536x16x2, .i32⟩ : BufTy).Contents (Elt Ideal)) (hrc : ∀ i, (x1 i).toNat < 8) (b : Fin 65536) (cell : Fin 64) :
    (∃ l : Fin 16, (x1 (ix3 b l 0)).toNat = cell.val / 8 ∧ (x1 (ix3 b l 1)).toNat = cell.val % 8)
      ↔ ∃ l : Fin 16, cellAt x1 b l = cell := by
  constructor
  · rintro ⟨l, h0, h1⟩
    exact ⟨l, Fin.ext ((cell_split _ _ (hrc _) (hrc _) cell).2 ⟨h0, h1⟩)⟩
  · rintro ⟨l, h⟩
    exact ⟨l, (cell_split _ _ (hrc _) (hrc _) cell).1 (congrArg Fin.val h)⟩

theorem empty_at (x0 : (⟨S65536x8x8x8, .f32⟩ : BufTy).Contents (Elt Ideal)) (x1 : (⟨S65536x16x2, .i32⟩ : BufTy).Contents (Elt Ideal)) (hrc : ∀ i, (x1 i).toNat < 8) (b : Fin 65536) (cell : Fin 64) :
    val_main_v183 (F := Ideal) x0 x1
        (ix3 b ⟨cell.val / 8, by have := cell.isLt; omega⟩ ⟨cell.val % 8, by omega⟩)
      = leafEmpty x0 x1 b cell := by
  rw [val_main_v183_apply, val_main_v182_apply, val_main_v181_apply, val_main_cst_23_apply, cellSq_at, mark_at x1 hrc]
  unfold leafEmpty emptyTerm markAt predCell
  by_cases h : ∃ l : Fin 16, cellAt x1 b l = cell
  · rw [if_pos h, if_pos ((cell_mark x1 hrc b cell).2 h)]
    rfl
  · rw [if_neg h, if_neg (mt (cell_mark x1 hrc b cell).1 h)]
    rfl

/-- The index set of samples, rows and columns is samples times cell numbers. -/
def cellEquiv : (⟨3, ![65536, 8, 8]⟩ : Shape).Idx ≃ Fin 65536 × Fin 64 where
  toFun i := (i 0, ⟨(i 1).val * 8 + (i 2).val, by
    have h1 : (i 1).val < 8 := (i 1).isLt
    have h2 : (i 2).val < 8 := (i 2).isLt
    omega⟩)
  invFun p := ix3 p.1 ⟨p.2.val / 8, by have := p.2.isLt; omega⟩ ⟨p.2.val % 8, by omega⟩
  left_inv i := by
    obtain ⟨a, b, c, rfl⟩ : ∃ a b c, i = ix3 a b c := ⟨i 0, i 1, i 2, eq_ix3 i⟩
    have hb : b.val < 8 := b.isLt
    have hc : c.val < 8 := c.isLt
    funext d
    match d with
    | ⟨0, _⟩ => rfl
    | ⟨1, _⟩ => exact Fin.ext (by show (b.val * 8 + c.val) / 8 = b.val; omega)
    | ⟨2, _⟩ => exact Fin.ext (by show (b.val * 8 + c.val) % 8 = c.val; omega)
  right_inv p := by
    obtain ⟨a, q⟩ := p
    have hq : q.val < 64 := q.isLt
    refine Prod.ext rfl (Fin.ext ?_)
    show q.val / 8 * 8 + q.val % 8 = q.val
    omega

/-- So a sum over it is the sum over samples of the sum over cell numbers. -/
theorem sum_cells {M : Type*} [AddCommMonoid M] (f : (⟨3, ![65536, 8, 8]⟩ : Shape).Idx → M) :
    ∑ j, f j = ∑ b : Fin 65536, ∑ cell : Fin 64,
      f (ix3 b ⟨cell.val / 8, by have := cell.isLt; omega⟩ ⟨cell.val % 8, by omega⟩) := by
  rw [← Equiv.sum_comp cellEquiv.symm f, Fintype.sum_prod_type]
  rfl

theorem sumEmpty (x0 : (⟨S65536x8x8x8, .f32⟩ : BufTy).Contents (Elt Ideal)) (x1 : (⟨S65536x16x2, .i32⟩ : BufTy).Contents (Elt Ideal)) (hrc : ∀ i, (x1 i).toNat < 8) (i : S_.Idx) :
    val_main_v184 (F := Ideal) x0 x1 i = 0 + ∑ b : Fin 65536, ∑ cell : Fin 64, leafEmpty x0 x1 b cell := by
  rw [val_main_v184_apply, val_main_cst_24_apply, Ideal.ofBits_def, Ideal.ofBits_zero_f32, sum_cells]
  exact congrArg (fun s => (0 : EReal) + s)
    (Finset.sum_congr rfl fun b _ => Finset.sum_congr rfl fun cell _ => empty_at x0 x1 hrc b cell)

/-! ## The whole -/

theorem value_at (x0 : (⟨S65536x8x8x8, .f32⟩ : BufTy).Contents (Elt Ideal)) (x1 : (⟨S65536x16x2, .i32⟩ : BufTy).Contents (Elt Ideal)) (x2 : (⟨S65536x16x3, .f32⟩ : BufTy).Contents (Elt Ideal)) (hrc : ∀ i, (x1 i).toNat < 8) (i : S_.Idx) :
    val_main_v188 (F := Ideal) x0 x1 x2 i = refTotal x0 x1 x2 := by
  rw [val_main_v188_apply, val_main_v187_apply, val_main_v186_apply, val_main_v185_apply, val_main_v150_apply,
    val_main_v149_apply, val_main_v142_apply, sumCoord x0 x1 x2 hrc, sumConf x0 x1 x2 hrc, sumOther x0 x1 x2 hrc,
    sumEmpty x0 x1 hrc, val_main_cst_11_apply, val_main_cst_14_apply, val_main_cst_25_apply, val_main_cst_26_apply]
  rfl

/-- The last stage of the reference, as a function of the three argument arrays, is the sum-by-sum loss. -/
theorem ref_value (x0 : SP.Idx → EReal) (x1 : SRC.Idx → BitVec 32) (x2 : SBX.Idx → EReal)
    (hrc : ∀ i, (x1 i).toNat < 8) :
    val_main_v188 (F := Ideal) x0 x1 x2 = fun _ => refTotal x0 x1 x2 := by
  funext i
  exact value_at x0 x1 x2 hrc i

end Cert.ReferenceIdeal.RefValue

end
-- ==== Proof.RefRun.lean ====
/-
  The reference program's run: every weakly fair execution terminates with its scalar result at the last stage of the
  stage-by-stage reading of its 218 host operations, applied to the arguments, and the arguments unchanged.
  Each operation's result is its function of the results before it; reading the result buffers in program order gives
  the stages, so the fold of the operations over the launch memory, read at the result, is the last stage.
-/
import proofs.«415334_j7971459302100_4_alg».proof.Proof.RefOps
import proofs.«415334_j7971459302100_4_alg».proof.Proof.RefRead

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxHeartbeats 4000000 in
set_option maxRecDepth 16384 in
/-- The fold over any starting contents, read at the result buffer, is the last stage of the contents of the arguments:
    reading the fold operation by operation gives the operations' composition, and the stages unfold to the same. -/
theorem fold_eq_stage_at (V : Valuation τ sig (Elt F)) :
    after (ops (F := F)) V (Proc.devRef .tc main_v188)
      = val_main_v188 (F := F) (V (Proc.devRef .tc main_arg0)) (V (Proc.devRef .tc main_arg1))
          (V (Proc.devRef .tc main_arg2)) := by
  after_results_simp
  rfl

/-- The operations' fold over the launch memory, read at the result buffer, is the last stage of the arguments. -/
theorem fold_eq_stage (m : (ℓ : Loc nD τ sig) → Buf (Elt F) ℓ) (c : Dev nD) :
    after (ops (F := F)) (launchContents m c) (Proc.devRef .tc main_v188)
      = val_main_v188 (F := F) (m ((c.tc : Thread nD τ).loc main_arg0)) (m ((c.tc : Thread nD τ).loc main_arg1))
          (m ((c.tc : Thread nD τ).loc main_arg2)) :=
  fold_eq_stage_at (launchContents m c)

/-- Every operation of the list determines its results. -/
theorem ops_fresh : ∀ op ∈ (ops : List (HloOp τ sig (Elt F))), op.fresh = ∅ :=
  List.forall_iff_forall_mem.mp (by simp only [List.Forall]; repeat' constructor)

set_option maxHeartbeats 4000000 in
set_option maxRecDepth 16384 in
/-- No operation writes an argument's buffer, so the fold leaves it as it was. -/
theorem arg_kept (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2) := by
  refine ⟨?_, ?_, ?_⟩
  all_goals
    refine after_of_forall_not_mem _ _ (List.forall_iff_forall_mem.mp ?_)
    simp only [List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact devRef_ne_of_ne (by decide)

/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v188)
        = val_main_v188 (F := F) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v188).trans (fold_eq_stage m c),
        (h c main_arg0).trans (arg_kept (launchContents m c)).1,
        (h c main_arg1).trans (arg_kept (launchContents m c)).2.1,
        (h c main_arg2).trans (arg_kept (launchContents m c)).2.2⟩)
    (run_seq scopedRefs_eq scopedSems_eq defs main (fun _ => ops) main_eq (fun _ => ops_sub) m ρ (fun _ => ops_fresh))

end Cert.ReferenceIdeal.RefRun

end
-- ==== Proof.lean ====
/-
  The certificate: the Pallas loss kernel and its jnp reference compute the same scalar over the extended reals, for finite
  `pred` and `label_box` and label cells `label_rc` inside the 8 × 8 grid.

  Both programs pick, per label, the 8 numbers of the cell the label points at — the kernel by multiplying a one-hot row
  with the 64 cells of the sample, the reference by indexing — form the same two overlap ratios and the same three squared
  errors, mark the cells some label points at — the kernel by a capped count of one-hot rows, the reference by writing ones
  at the labels' cells — and weigh four sums `5 · Σ coord + Σ conf + ½ · Σ other + ½ · Σ empty`, divided by the batch size.
  The kernel forms the weighted combination per block of 128 samples and adds the 256 blocks of each half of the batch into
  one output block, the host adding the two halves; the reference sums each term over the whole batch first. Every term is
  non-negative, and on non-negative extended reals a constant factor distributes over sums, so the two groupings agree
  (Proof/SumLaw.lean). The label cells must be in range: outside it the reference's indexing clamps while the one-hot row
  is empty, and the two programs differ; the precondition's last two conjuncts say exactly `0 ≤ label_rc < 8`
  (Proof/PreDecode.lean reads them).

  Proof/Spec.lean states the loss; Proof/KernelGather.lean and Proof/KernelBody.lean read one run of the kernel's body;
  Proof/KernelValue.lean the whole kernel program (induction over the grid points, the result array, the host's tail);
  Proof/RefIndexing.lean the reference's gather, scatter and concatenation at an index; Proof/RefValue.lean its last stage;
  Proof/RefRun.lean its run. The kernel's word-level and ideal frames are the generated ones; the ledger of the ideal pass
  is empty.
-/
import proofs.«415334_j7971459302100_4_alg».proof.Defs
import proofs.«415334_j7971459302100_4_alg».proof.Proof.Gen.Kernel
import proofs.«415334_j7971459302100_4_alg».proof.Proof.Gen.Kernel.Frame
import proofs.«415334_j7971459302100_4_alg».proof.Proof.Gen.KernelIdeal
import proofs.«415334_j7971459302100_4_alg».proof.Proof.Gen.KernelIdeal.Frame
import proofs.«415334_j7971459302100_4_alg».proof.Proof.Gen.ReferenceIdeal
import proofs.«415334_j7971459302100_4_alg».proof.Proof.Gen.Pre_finite_inputs
import proofs.«415334_j7971459302100_4_alg».proof.Proof.SumLaw
import proofs.«415334_j7971459302100_4_alg».proof.Proof.PreDecode
import proofs.«415334_j7971459302100_4_alg».proof.Proof.KernelValue
import proofs.«415334_j7971459302100_4_alg».proof.Proof.RefValue
import proofs.«415334_j7971459302100_4_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the same scalar: the kernel's at the block-by-block total, the reference's at the sum-by-sum total of
    arguments that agree, and the two totals are equal. -/
theorem algebraic : Cert.algebraic_KernelIdeal_ReferenceIdeal := by
  intro m ρ m' ρ' hpre hagree
  have hrc : ∀ (c : Dev Cert.KernelIdeal.nD) i,
      (m ((c.tc : Thread Cert.KernelIdeal.nD Cert.KernelIdeal.τ).loc Cert.KernelIdeal.main_arg1) i).toNat < 8 :=
    fun c => Cert.PreDecode.rc_lt_eight _ _ _ (hpre c)
  refine ⟨fun c _ => Cert.LossSpec.kerTotal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ hrc, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2, Cert.ReferenceIdeal.RefValue.ref_value _ _ _ (hrc c)]
  funext _
  exact (Cert.LossSpec.kerTotal_eq_refTotal _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
